-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x128 : Shape := ⟨3, ![32, 1024, 128]⟩
abbrev S32x1024 : Shape := ⟨2, ![32, 1024]⟩
abbrev S4000x4000 : Shape := ⟨2, ![4000, 4000]⟩
abbrev S_ : Shape := ⟨0, ![]⟩

class Facts : Prop where
  bcast_S_S32x1024x128 : S_.BroadcastsInDim S32x1024x128 (![] : Fin 0 → Fin S32x1024x128.rank)
  reducesTo_S32x1024x128_S_d0_1_2 : S32x1024x128.ReducesTo [0, 1, 2] S_
  h_S_ : 0 < S_.numel
  bcast_S_S4000x4000 : S_.BroadcastsInDim S4000x4000 (![] : Fin 0 → Fin S4000x4000.rank)
  reducesTo_S4000x4000_S_d0_1 : S4000x4000.ReducesTo [0, 1] S_
  bcast_S_S32x1024 : S_.BroadcastsInDim S32x1024 (![] : Fin 0 → Fin S32x1024.rank)
  reducesTo_S32x1024_S_d0_1 : S32x1024.ReducesTo [0, 1] S_

variable [Facts]

def fn_part1 {F : FTy → Type} [FloatOps F] (main_arg1 : IVec S32x1024 32) (main_v13 : IVec S_ 1) (main_v15 : IVec S32x1024 1) (main_c_5 : IVec S_ 32) : IVec S_ 1 :=
  let main_v16 : IVec S32x1024 32 := broadcastInDim S32x1024 ![] bcast_S_S32x1024 main_c_5
  let main_v17 : IVec S32x1024 1 := cmpi .slt main_arg1 main_v16
  let main_v18 : IVec S32x1024 1 := andi main_v15 main_v17
  let main_c_6 : IVec S_ 1 := constantI S_ 1 1#1
  let main_v19 : IVec S_ 1 := (fun x v => Host.reduce IntOp.andi x v reducesTo_S32x1024_S_d0_1 h_S_) main_v18 main_c_6
  let main_v20 : IVec S_ 1 := andi main_v13 main_v19
  main_v20

def fn {F : FTy → Type} [FloatOps F] (main_arg0 : FVec F S32x1024x128 .f32) (main_arg1 : IVec S32x1024 32) (main_arg2 : FVec F S4000x4000 .f32) (main_arg3 : FVec F S4000x4000 .f32) : IVec S_ 1 :=
  let main_v0 : FVec F S32x1024x128 .f32 := Host.absf main_arg0
  let main_cst : FVec F S_ .f32 := constant S_ .f32 0x7F800000#32
  let main_v1 : FVec F S32x1024x128 .f32 := broadcastInDim S32x1024x128 ![] bcast_S_S32x1024x128 main_cst
  let main_v2 : IVec S32x1024x128 1 := cmpf .olt main_v0 main_v1
  let main_c : IVec S_ 1 := constantI S_ 1 1#1
  let main_v3 : IVec S_ 1 := (fun x v => Host.reduce IntOp.andi x v reducesTo_S32x1024x128_S_d0_1_2 h_S_) main_v2 main_c
  let main_v4 : FVec F S4000x4000 .f32 := Host.absf main_arg2
  let main_cst_0 : FVec F S_ .f32 := constant S_ .f32 0x7F800000#32
  let main_v5 : FVec F S4000x4000 .f32 := broadcastInDim S4000x4000 ![] bcast_S_S4000x4000 main_cst_0
  let main_v6 : IVec S4000x4000 1 := cmpf .olt main_v4 main_v5
  let main_c_1 : IVec S_ 1 := constantI S_ 1 1#1
  let main_v7 : IVec S_ 1 := (fun x v => Host.reduce IntOp.andi x v reducesTo_S4000x4000_S_d0_1 h_S_) main_v6 main_c_1
  let main_v8 : IVec S_ 1 := andi main_v3 main_v7
  let main_v9 : FVec F S4000x4000 .f32 := Host.absf main_arg3
  let main_cst_2 : FVec F S_ .f32 := constant S_ .f32 0x7F800000#32
  let main_v10 : FVec F S4000x4000 .f32 := broadcastInDim S4000x4000 ![] bcast_S_S4000x4000 main_cst_2
  let main_v11 : IVec S4000x4000 1 := cmpf .olt main_v9 main_v10
  let main_c_3 : IVec S_ 1 := constantI S_ 1 1#1
  let main_v12 : IVec S_ 1 := (fun x v => Host.reduce IntOp.andi x v reducesTo_S4000x4000_S_d0_1 h_S_) main_v11 main_c_3
  let main_v13 : IVec S_ 1 := andi main_v8 main_v12
  let main_c_4 : IVec S_ 32 := constantI S_ 32 0#32
  let main_v14 : IVec S32x1024 32 := broadcastInDim S32x1024 ![] bcast_S_S32x1024 main_c_4
  let main_v15 : IVec S32x1024 1 := cmpi .sge main_arg1 main_v14
  let main_c_5 : IVec S_ 32 := constantI S_ 32 4000#32
  fn_part1 (F := F) main_arg1 main_v13 main_v15 main_c_5
-- ==== Kernel.lean ====
abbrev S32x1024x128 : Shape := ⟨3, ![32, 1024, 128]⟩
abbrev S32x1024 : Shape := ⟨2, ![32, 1024]⟩
abbrev S4000x4000 : Shape := ⟨2, ![4000, 4000]⟩
abbrev S_ : Shape := ⟨0, ![]⟩
abbrev S4000x4096 : Shape := ⟨2, ![4000, 4096]⟩
abbrev S32x1024x1 : Shape := ⟨3, ![32, 1024, 1]⟩
abbrev S32x1024x4096 : Shape := ⟨3, ![32, 1024, 4096]⟩
abbrev S1x1024x1 : Shape := ⟨3, ![1, 1024, 1]⟩
abbrev S1x1024x128 : Shape := ⟨3, ![1, 1024, 128]⟩
abbrev S1x256x4096 : Shape := ⟨3, ![1, 256, 4096]⟩
abbrev S1x256x128 : Shape := ⟨3, ![1, 256, 128]⟩
abbrev S1024x4096 : Shape := ⟨2, ![1024, 4096]⟩
abbrev S1024x1 : Shape := ⟨2, ![1024, 1]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024x128 : Shape := ⟨2, ![1024, 128]⟩
abbrev S256x128 : Shape := ⟨2, ![256, 128]⟩

abbrev nBuf : Space → Nat
  | .hbm => 32
  | .vmem => 11
  | .smem => 0
  | _ => 0

abbrev bufTy : (tb : Table) → Fin (tcTables nBuf tb) → BufTy
  | .hbm, ⟨0, _⟩ => ⟨S32x1024x128, .f32⟩
  | .hbm, ⟨1, _⟩ => ⟨S32x1024, .i32⟩
  | .hbm, ⟨2, _⟩ => ⟨S4000x4000, .f32⟩
  | .hbm, ⟨3, _⟩ => ⟨S4000x4000, .f32⟩
  | .hbm, ⟨4, _⟩ => ⟨S4000x4000, .bf16⟩
  | .hbm, ⟨5, _⟩ => ⟨S_, .i32⟩
  | .hbm, ⟨6, _⟩ => ⟨S_, .bf16⟩
  | .hbm, ⟨7, _⟩ => ⟨S4000x4096, .bf16⟩
  | .hbm, ⟨8, _⟩ => ⟨S4000x4000, .bf16⟩
  | .hbm, ⟨9, _⟩ => ⟨S_, .i32⟩
  | .hbm, ⟨10, _⟩ => ⟨S_, .bf16⟩
  | .hbm, ⟨11, _⟩ => ⟨S4000x4096, .bf16⟩
  | .hbm, ⟨12, _⟩ => ⟨S_, .i32⟩
  | .hbm, ⟨13, _⟩ => ⟨S32x1024, .i32⟩
  | .hbm, ⟨14, _⟩ => ⟨S32x1024, .i1⟩
  | .hbm, ⟨15, _⟩ => ⟨S_, .i32⟩
  | .hbm, ⟨16, _⟩ => ⟨S32x1024, .i32⟩
  | .hbm, ⟨17, _⟩ => ⟨S32x1024, .i32⟩
  | .hbm, ⟨18, _⟩ => ⟨S32x1024, .i32⟩
  | .hbm, ⟨19, _⟩ => ⟨S32x1024x1, .i32⟩
  | .hbm, ⟨20, _⟩ => ⟨S32x1024x4096, .bf16⟩
  | .hbm, ⟨21, _⟩ => ⟨S_, .i32⟩
  | .hbm, ⟨22, _⟩ => ⟨S32x1024, .i32⟩
  | .hbm, ⟨23, _⟩ => ⟨S32x1024, .i1⟩
  | .hbm, ⟨24, _⟩ => ⟨S_, .i32⟩
  | .hbm, ⟨25, _⟩ => ⟨S32x1024, .i32⟩
  | .hbm, ⟨26, _⟩ => ⟨S32x1024, .i32⟩
  | .hbm, ⟨27, _⟩ => ⟨S32x1024, .i32⟩
  | .hbm, ⟨28, _⟩ => ⟨S32x1024x1, .i32⟩
  | .hbm, ⟨29, _⟩ => ⟨S32x1024x4096, .bf16⟩
  | .hbm, ⟨30, _⟩ => ⟨S32x1024x1, .i32⟩
  | .hbm, ⟨31, _⟩ => ⟨S32x1024x128, .f32⟩
  | .local _ .vmem, ⟨0, _⟩ => ⟨S1x1024x1, .i32⟩
  | .local _ .vmem, ⟨1, _⟩ => ⟨S1x1024x1, .i32⟩
  | .local _ .vmem, ⟨2, _⟩ => ⟨S1x1024x128, .f32⟩
  | .local _ .vmem, ⟨3, _⟩ => ⟨S1x1024x128, .f32⟩
  | .local _ .vmem, ⟨4, _⟩ => ⟨S1x256x4096, .bf16⟩
  | .local _ .vmem, ⟨5, _⟩ => ⟨S1x256x4096, .bf16⟩
  | .local _ .vmem, ⟨6, _⟩ => ⟨S1x256x4096, .bf16⟩
  | .local _ .vmem, ⟨7, _⟩ => ⟨S1x256x4096, .bf16⟩
  | .local _ .vmem, ⟨8, _⟩ => ⟨S1x256x128, .f32⟩
  | .local _ .vmem, ⟨9, _⟩ => ⟨S1x256x128, .f32⟩
  | .local _ .vmem, ⟨10, _⟩ => ⟨S1024x4096, .bf16⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  pads_S4000x4000_S4000x4096_000_0960 : S4000x4000.Pads (![0, 0] : Fin 2 → Nat) ![0, 96] ![0, 0] S4000x4096
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  shapeCasts_S32x1024_S32x1024x1 : S32x1024.ShapeCasts S32x1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  iota_S1024x4096_d1_w32 : S1024x4096.Iotas .tc 32 [1]
  broadcasts_S1024x1_S1024x4096 : S1024x1.Broadcasts S1024x4096
  natLt_1_32 : 1 < 32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  packedbf16_S1024x4096_S1024x4096_0_0 : (Rect.unit (s := S1024x4096) ![0, 0] S1024x4096.size inb_S1024x4096_S1024x4096_0_0).PackedRows (EltTy.packing .bf16)
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  iota_S256x1024_d0_w32 : S256x1024.Iotas .tc 32 [0]
  iota_S256x1024_d1_w32 : S256x1024.Iotas .tc 32 [1]
  reduces_S256x1024_S256 : S256x1024.Reduces [1] S256
  shapeCasts_S256_S256x1 : S256.ShapeCasts S256x1
  broadcasts_S256x1_S256x1024 : S256x1.Broadcasts S256x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  gather_S4000x4096_S32x1024x1_S32x1024x4096_2_0_n_n_0_2_14096_wf : GatherDims.WF S4000x4096 S32x1024x1 S32x1024x4096 [2] [0] [] [0] [] 2 ![1, 4096]
  dot_S256x4096_S1024x4096_S256x1024_1_1_0_0_n_n_wf : DotDims.WF S256x4096 S1024x4096 S256x1024 [1] [1] [0] [0] [] []
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1.size a ≤ S32x1024x1.size a
  hwx0_0 : ∀ i : grid0.Coords, EltTy.bits .i32 = 32 ∨ (Rect.block (s := S32x1024x1) S1x1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S32x1024x128.size a
  hwx0_1 : ∀ i : grid0.Coords, EltTy.bits .f32 = 32 ∨ (Rect.block (s := S32x1024x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S32x1024x4096.size a
  hwx0_2 : ∀ i : grid0.Coords, EltTy.bits .bf16 = 32 ∨ (Rect.block (s := S32x1024x4096) S1x256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S32x1024x4096.size a
  hwx0_3 : ∀ i : grid0.Coords, EltTy.bits .bf16 = 32 ∨ (Rect.block (s := S32x1024x4096) S1x256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x128.size a ≤ S32x1024x128.size a
  hwx0_4 : ∀ i : grid0.Coords, EltTy.bits .f32 = 32 ∨ (Rect.block (s := S32x1024x128) S1x256x128.size (cc0_transform_4 i) (hinb0_4 i)).WholeWords (EltTy.packing .f32)

variable [Facts₀]

def gather_S4000x4096_S32x1024x1_S32x1024x4096_2_0_n_n_0_2_14096 : GatherDims S4000x4096 S32x1024x1 S32x1024x4096 where
  offsetDims := [2]
  collapsedSliceDims := [0]
  operandBatchingDims := []
  startIndicesBatchingDims := []
  startIndexMap := [0]
  indexVectorDim := 2
  sliceSizes := ![1, 4096]
  wf := gather_S4000x4096_S32x1024x1_S32x1024x4096_2_0_n_n_0_2_14096_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_v18) S1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x128 : Shape := ⟨3, ![32, 1024, 128]⟩
abbrev S32x1024 : Shape := ⟨2, ![32, 1024]⟩
abbrev S4000x4000 : Shape := ⟨2, ![4000, 4000]⟩
abbrev S_ : Shape := ⟨0, ![]⟩
abbrev S32x1024x1 : Shape := ⟨3, ![32, 1024, 1]⟩
abbrev S32x1024x4000 : Shape := ⟨3, ![32, 1024, 4000]⟩
abbrev S32x1024x1024 : Shape := ⟨3, ![32, 1024, 1024]⟩
abbrev S1024x1024 : Shape := ⟨2, ![1024, 1024]⟩

abbrev nBuf : Space → Nat
  | .hbm => 71
  | .vmem => 0
  | .smem => 0
  | _ => 0

abbrev bufTy : (tb : Table) → Fin (tcTables nBuf tb) → BufTy
  | .hbm, ⟨0, _⟩ => ⟨S32x1024x128, .f32⟩
  | .hbm, ⟨1, _⟩ => ⟨S32x1024, .i32⟩
  | .hbm, ⟨2, _⟩ => ⟨S4000x4000, .f32⟩
  | .hbm, ⟨3, _⟩ => ⟨S4000x4000, .f32⟩
  | .hbm, ⟨4, _⟩ => ⟨S_, .i32⟩
  | .hbm, ⟨5, _⟩ => ⟨S32x1024, .i32⟩
  | .hbm, ⟨6, _⟩ => ⟨S32x1024, .i1⟩
  | .hbm, ⟨7, _⟩ => ⟨S_, .i32⟩
  | .hbm, ⟨8, _⟩ => ⟨S32x1024, .i32⟩
  | .hbm, ⟨9, _⟩ => ⟨S32x1024, .i32⟩
  | .hbm, ⟨10, _⟩ => ⟨S32x1024, .i32⟩
  | .hbm, ⟨11, _⟩ => ⟨S32x1024x1, .i32⟩
  | .hbm, ⟨12, _⟩ => ⟨S32x1024x4000, .f32⟩
  | .hbm, ⟨13, _⟩ => ⟨S_, .i32⟩
  | .hbm, ⟨14, _⟩ => ⟨S32x1024, .i32⟩
  | .hbm, ⟨15, _⟩ => ⟨S32x1024, .i1⟩
  | .hbm, ⟨16, _⟩ => ⟨S_, .i32⟩
  | .hbm, ⟨17, _⟩ => ⟨S32x1024, .i32⟩
  | .hbm, ⟨18, _⟩ => ⟨S32x1024, .i32⟩
  | .hbm, ⟨19, _⟩ => ⟨S32x1024, .i32⟩
  | .hbm, ⟨20, _⟩ => ⟨S32x1024x1, .i32⟩
  | .hbm, ⟨21, _⟩ => ⟨S32x1024x1024, .f32⟩
  | .hbm, ⟨22, _⟩ => ⟨S_, .i32⟩
  | .hbm, ⟨23, _⟩ => ⟨S32x1024, .i32⟩
  | .hbm, ⟨24, _⟩ => ⟨S32x1024, .i1⟩
  | .hbm, ⟨25, _⟩ => ⟨S_, .i32⟩
  | .hbm, ⟨26, _⟩ => ⟨S32x1024, .i32⟩
  | .hbm, ⟨27, _⟩ => ⟨S32x1024, .i32⟩
  | .hbm, ⟨28, _⟩ => ⟨S32x1024, .i32⟩
  | .hbm, ⟨29, _⟩ => ⟨S32x1024x1, .i32⟩
  | .hbm, ⟨30, _⟩ => ⟨S32x1024x4000, .f32⟩
  | .hbm, ⟨31, _⟩ => ⟨S_, .i32⟩
  | .hbm, ⟨32, _⟩ => ⟨S32x1024, .i32⟩
  | .hbm, ⟨33, _⟩ => ⟨S32x1024, .i1⟩
  | .hbm, ⟨34, _⟩ => ⟨S_, .i32⟩
  | .hbm, ⟨35, _⟩ => ⟨S32x1024, .i32⟩
  | .hbm, ⟨36, _⟩ => ⟨S32x1024, .i32⟩
  | .hbm, ⟨37, _⟩ => ⟨S32x1024, .i32⟩
  | .hbm, ⟨38, _⟩ => ⟨S32x1024x1, .i32⟩
  | .hbm, ⟨39, _⟩ => ⟨S32x1024x1024, .f32⟩
  | .hbm, ⟨40, _⟩ => ⟨S1024x1024, .i32⟩
  | .hbm, ⟨41, _⟩ => ⟨S1024x1024, .i32⟩
  | .hbm, ⟨42, _⟩ => ⟨S_, .i32⟩
  | .hbm, ⟨43, _⟩ => ⟨S1024x1024, .i32⟩
  | .hbm, ⟨44, _⟩ => ⟨S1024x1024, .i32⟩
  | .hbm, ⟨45, _⟩ => ⟨S1024x1024, .i1⟩
  | .hbm, ⟨46, _⟩ => ⟨S_, .f32⟩
  | .hbm, ⟨47, _⟩ => ⟨S32x1024x1024, .i1⟩
  | .hbm, ⟨48, _⟩ => ⟨S32x1024x1024, .f32⟩
  | .hbm, ⟨49, _⟩ => ⟨S32x1024x1024, .f32⟩
  | .hbm, ⟨50, _⟩ => ⟨S_, .f32⟩
  | .hbm, ⟨51, _⟩ => ⟨S32x1024x1024, .i1⟩
  | .hbm, ⟨52, _⟩ => ⟨S32x1024x1024, .f32⟩
  | .hbm, ⟨53, _⟩ => ⟨S32x1024x1024, .f32⟩
  | .hbm, ⟨54, _⟩ => ⟨S32x1024x1024, .f32⟩
  | .hbm, ⟨55, _⟩ => ⟨S_, .f32⟩
  | .hbm, ⟨56, _⟩ => ⟨S32x1024, .f32⟩
  | .hbm, ⟨57, _⟩ => ⟨S_, .f32⟩
  | .hbm, ⟨58, _⟩ => ⟨S32x1024, .f32⟩
  | .hbm, ⟨59, _⟩ => ⟨S32x1024, .f32⟩
  | .hbm, ⟨60, _⟩ => ⟨S32x1024x1, .f32⟩
  | .hbm, ⟨61, _⟩ => ⟨S32x1024x1024, .f32⟩
  | .hbm, ⟨62, _⟩ => ⟨S32x1024x1024, .f32⟩
  | .hbm, ⟨63, _⟩ => ⟨S32x1024x1024, .f32⟩
  | .hbm, ⟨64, _⟩ => ⟨S_, .f32⟩
  | .hbm, ⟨65, _⟩ => ⟨S32x1024, .f32⟩
  | .hbm, ⟨66, _⟩ => ⟨S32x1024x1, .f32⟩
  | .hbm, ⟨67, _⟩ => ⟨S32x1024x1024, .f32⟩
  | .hbm, ⟨68, _⟩ => ⟨S32x1024x1024, .f32⟩
  | .hbm, ⟨69, _⟩ => ⟨S32x1024x1024, .f32⟩
  | .hbm, ⟨70, _⟩ => ⟨S32x1024x128, .f32⟩
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst : Ref sig .tc := ⟨.hbm, 46, rfl⟩
abbrev main_call0_v0 : Ref sig .tc := ⟨.hbm, 47, rfl⟩
abbrev main_call0_v1 : Ref sig .tc := ⟨.hbm, 48, rfl⟩
abbrev main_v33 : Ref sig .tc := ⟨.hbm, 49, rfl⟩
abbrev main_cst_8 : Ref sig .tc := ⟨.hbm, 50, rfl⟩
abbrev main_call1_v0 : Ref sig .tc := ⟨.hbm, 51, rfl⟩
abbrev main_call1_v1 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]

class Facts₀ : Prop where
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S_S1024x1024 : S_.BroadcastsInDim S1024x1024 (![] : Fin 0 → Fin S1024x1024.rank)
  bcast_S1024x1024_S32x1024x1024_1_2 : S1024x1024.BroadcastsInDim S32x1024x1024 (![1, 2] : Fin 2 → Fin S32x1024x1024.rank)
  bcast_S_S32x1024x1024 : S_.BroadcastsInDim S32x1024x1024 (![] : Fin 0 → Fin S32x1024x1024.rank)
  reducesTo_S32x1024x1024_S32x1024_d2 : S32x1024x1024.ReducesTo [2] S32x1024
  h_S_ : 0 < S_.numel
  bcast_S32x1024x1_S32x1024x1024_0_1_2 : S32x1024x1.BroadcastsInDim S32x1024x1024 (![0, 1, 2] : Fin 3 → Fin S32x1024x1024.rank)
  gather_S4000x4000_S32x1024x1_S32x1024x4000_2_0_n_n_0_2_14000_wf : GatherDims.WF S4000x4000 S32x1024x1 S32x1024x4000 [2] [0] [] [0] [] 2 ![1, 4000]
  gather_S32x1024x4000_S32x1024x1_S32x1024x1024_1_2_0_0_2_2_110241_wf : GatherDims.WF S32x1024x4000 S32x1024x1 S32x1024x1024 [1] [2] [0] [2] [0] 2 ![1, 1024, 1]
  dot_S32x1024x1024_S32x1024x128_S32x1024x128_2_1_1_2_0_0_wf : DotDims.WF S32x1024x1024 S32x1024x128 S32x1024x128 [2] [1] [1] [2] [0] [0]

variable [Facts₀]

def gather_S4000x4000_S32x1024x1_S32x1024x4000_2_0_n_n_0_2_14000 : GatherDims S4000x4000 S32x1024x1 S32x1024x4000 where
  offsetDims := [2]
  collapsedSliceDims := [0]
  operandBatchingDims := []
  startIndicesBatchingDims := []
  startIndexMap := [0]
  indexVectorDim := 2
  sliceSizes := ![1, 4000]
  wf := gather_S4000x4000_S32x1024x1_S32x1024x4000_2_0_n_n_0_2_14000_wf
def gather_S32x1024x4000_S32x1024x1_S32x1024x1024_1_2_0_0_2_2_110241 : GatherDims S32x1024x4000 S32x1024x1 S32x1024x1024 where
  offsetDims := [1]
  collapsedSliceDims := [2]
  operandBatchingDims := [0]
  startIndicesBatchingDims := [0]
  startIndexMap := [2]
  indexVectorDim := 2
  sliceSizes := ![1, 1024, 1]
  wf := gather_S32x1024x4000_S32x1024x1_S32x1024x1024_1_2_0_0_2_2_110241_wf
def dot_S32x1024x1024_S32x1024x128_S32x1024x128_2_1_1_2_0_0 : DotDims S32x1024x1024 S32x1024x128 S32x1024x128 where
  lhsContracting := [2]
  rhsContracting := [1]
  lhsNonContracting := [1]
  rhsNonContracting := [2]
  lhsBatch := [0]
  rhsBatch := [0]
  wf := dot_S32x1024x1024_S32x1024x128_S32x1024x128_2_1_1_2_0_0_wf

class Facts : Prop extends Facts₀ where

variable [Facts]
-- ==== Proof.Spec.lean ====
/-
  The common value of the two programs, as one function of the four argument arrays.

  For a batch `b` and a query row `R` both programs select, for every column `n`, the entry of the interaction
  matrix and of the weight matrix at (row of id[b, R], row of id[b, n]); zero the entry on the diagonal `R = n`; take
  the absolute value of the weights; turn the weights' row into a softmax (shifted by the row's maximum); multiply the
  two rows entrywise and contract the product with the features of batch `b`:

      out[b, R, f] = ∑ n, (a n · (exp (w n − max w) / ∑ k, exp (w k − max w))) · feat[b, n, f].

  An id is read as jnp's indexing reads it: a negative id counts from the end (4000 is added) and the result is
  clamped into [0, 3999]. For an id already in [0, 4000) that is the id itself (`rowOf_of_lt`).
-/
import Idealize.ShloMosaic.PureOps.Ideal
import Idealize.ShloMosaic.Lib.ValueIdx

noncomputable section

namespace Cert.Spec

open Idealize.ShloMosaic Idealize.ShloMosaic.ValueIdx

/-- The ids: one per (batch, position). -/
abbrev SIds : Shape := ⟨2, ![32, 1024]⟩
/-- A square table over the 4000 stocks. -/
abbrev SMat : Shape := ⟨2, ![4000, 4000]⟩
/-- The features, and the result: (batch, position, feature). -/
abbrev SFeat : Shape := ⟨3, ![32, 1024, 128]⟩

/-- A negative index counts from the end of an axis of extent 4000. -/
def wrap (x : BitVec 32) : BitVec 32 := Scalar.select (IntOp.cmpi .slt x 0#32) (IntOp.addi x 4000#32) x

/-- The table row an id selects: wrapped, read signed, clamped into the table. -/
def rowOf (x : BitVec 32) : Fin 4000 := ⟨min (wrap x).toInt.toNat 3999, Nat.lt_succ_of_le (Nat.min_le_right _ _)⟩

/-- Every id is a row number of the table. -/
def InRange (ids : IVec SIds 32) : Prop := ∀ (b : Fin 32) (n : Fin 1024), (ids (ix2 b n)).toNat < 4000

/-- The entry of table `X` that batch `b` selects for the pair of positions (R, n). -/
def sel (ids : IVec SIds 32) (X : SMat.Idx → EReal) (b : Fin 32) (R n : Fin 1024) : EReal :=
  X (ix2 (rowOf (ids (ix2 b R))) (rowOf (ids (ix2 b n))))

/-- Row `R` of the selected interactions, its diagonal entry zeroed. -/
def aRow (ids : IVec SIds 32) (M : SMat.Idx → EReal) (b : Fin 32) (R : Fin 1024) : Fin 1024 → EReal :=
  fun n => if R.val = n.val then 0 else sel ids M b R n

/-- Row `R` of the selected weights, its diagonal entry zeroed, in absolute value. -/
def wRow (ids : IVec SIds 32) (W : SMat.Idx → EReal) (b : Fin 32) (R : Fin 1024) : Fin 1024 → EReal :=
  fun n => max (if R.val = n.val then 0 else sel ids W b R n) (-(if R.val = n.val then 0 else sel ids W b R n))

/-- The largest entry of a row (−∞ for the fold's start). -/
def rowMax (w : Fin 1024 → EReal) : EReal := (Finset.univ : Finset (Fin 1024)).fold max ⊥ w

/-- The softmax weight of column `n` in the row `w`. -/
def attn (w : Fin 1024 → EReal) (n : Fin 1024) : EReal :=
  Ideal.div (Ideal.exp (w n - rowMax w)) (∑ k : Fin 1024, Ideal.exp (w k - rowMax w))

/-- One result entry from a row `a` of interactions, a row `w` of weights and a column `x` of features. -/
def rowOut (a w x : Fin 1024 → EReal) : EReal := ∑ n : Fin 1024, (a n * attn w n) * x n

/-- The result entry at (batch b, position R, feature f). -/
def Gat (feat : SFeat.Idx → EReal) (ids : IVec SIds 32) (M W : SMat.Idx → EReal) (b : Fin 32) (R : Fin 1024) (f : Fin 128) : EReal :=
  rowOut (aRow ids M b R) (wRow ids W b R) (fun n => feat (ix3 b n f))

/-- THE RESULT ARRAY as one function of the four arguments. -/
def G (feat : SFeat.Idx → EReal) (ids : IVec SIds 32) (M W : SMat.Idx → EReal) : SFeat.Idx → EReal :=
  fun j => Gat feat ids M W (j 0) (j 1) (j 2)

theorem G_ix3 (feat : SFeat.Idx → EReal) (ids : IVec SIds 32) (M W : SMat.Idx → EReal) (b : Fin 32) (R : Fin 1024) (f : Fin 128) :
    G feat ids M W (ix3 b R f) = Gat feat ids M W b R f := rfl

/-- An id that is a row number is not negative, so it is not wrapped … -/
theorem wrap_of_lt {x : BitVec 32} (h : x.toNat < 4000) : wrap x = x := by
  unfold wrap
  have hs : IntOp.cmpi .slt x 0#32 = 0#1 := by
    have hx : ¬ (x.toInt < 0) := by
      rw [BitVec.toInt_eq_toNat_of_lt (by omega)]; omega
    simp [IntOp.cmpi, BitVec.slt, hx]
  rw [hs]; exact select_zero _ _

/-- … and it selects the row of its own number. -/
theorem rowOf_of_lt {x : BitVec 32} (h : x.toNat < 4000) : (rowOf x).val = x.toNat := by
  show min (wrap x).toInt.toNat 3999 = x.toNat
  rw [wrap_of_lt h, BitVec.toInt_eq_toNat_of_lt (by omega)]
  simp only [Int.toNat_natCast]
  omega

end Cert.Spec

end
-- ==== Proof.LibGather3.lean ====
/-
  `stablehlo.gather` read at an index, for the two shapes jnp's `X[ids]` and `Y[:, ids]` (under a batch axis) lower to
  when the ids come as a rank-3 array [B, R, 1] of start indices.

  * ROWS: operand [N, D], start indices [B, R, 1], result [B, R, D] (offset axis 2, collapsed axis 0, start index map
    [0], slice [1, D]): result (b, r, c) is the operand at (row, c), the row being the start index at (b, r, 0) read
    signed and clamped into [0, N − 1].
  * BATCHED COLUMNS: operand [B, R, D], start indices [B, C, 1], result [B, R, C] (offset axis 1, collapsed axis 2,
    batching axis 0 on both, start index map [2], slice [1, R, 1]): result (b, r, n) is the operand at (b, r, col), the
    column being the start index at (b, n, 0) read signed and clamped into [0, D − 1].
-/
import Idealize.ShloMosaic.PureOps
import Idealize.ShloMosaic.Lib.ValueIdx

noncomputable section

namespace Cert.LibGather3

open Idealize.ShloMosaic Idealize.ShloMosaic.ValueIdx

variable {α : Type}

/-- The dimension numbers of the row gather. -/
abbrev rowsDims (N D B R : Nat)
    (wf : GatherDims.WF ⟨2, ![N, D]⟩ ⟨3, ![B, R, 1]⟩ ⟨3, ![B, R, D]⟩ [2] [0] [] [0] [] 2 ![1, D]) :
    GatherDims ⟨2, ![N, D]⟩ ⟨3, ![B, R, 1]⟩ ⟨3, ![B, R, D]⟩ where
  offsetDims := [2]
  collapsedSliceDims := [0]
  operandBatchingDims := []
  startIndicesBatchingDims := []
  startIndexMap := [0]
  indexVectorDim := 2
  sliceSizes := ![1, D]
  wf := wf

/-- THE ROW GATHER READ AT (b, r, c). -/
theorem rows_gather_apply {N D B R w : Nat} (hN : 0 < N)
    (wf : GatherDims.WF ⟨2, ![N, D]⟩ ⟨3, ![B, R, 1]⟩ ⟨3, ![B, R, D]⟩ [2] [0] [] [0] [] 2 ![1, D])
    (x : (⟨2, ![N, D]⟩ : Shape).Idx → α) (idx : IVec ⟨3, ![B, R, 1]⟩ w) (b : Fin B) (r : Fin R) (c : Fin D) :
    Host.gather (rowsDims N D B R wf) x idx (ix3 b r c)
      = x (ix2 ⟨min (idx (ix3 b r (0 : Fin 1))).toInt.toNat (N - 1), by omega⟩ c) := by
  unfold Host.gather
  congr 1
  funext a
  refine Fin.ext ?_
  match a with
  | ⟨0, _⟩ =>
    show (rowsDims N D B R wf).start (ix3 b r c) idx 0 + (rowsDims N D B R wf).batchCoord (ix3 b r c) 0
      + (rowsDims N D B R wf).offCoord (ix3 b r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D B R wf).startIndexMap from List.mem_singleton.mpr rfl)]
    have hsi : (rowsDims N D B R wf).siIdx (ix3 b r c) ⟨List.idxOf (0 : Fin 2) (rowsDims N D B R wf).startIndexMap,
        List.idxOf_lt_length_iff.2 (List.mem_singleton.mpr rfl)⟩ = ix3 b r (0 : Fin 1) := by
      funext e; refine Fin.ext ?_
      match e with
      | ⟨0, _⟩ => rfl
      | ⟨1, _⟩ => rfl
      | ⟨2, _⟩ => rfl
    rw [hsi]
    rfl
  | ⟨1, _⟩ =>
    show (rowsDims N D B R wf).start (ix3 b r c) idx 1 + (rowsDims N D B R wf).batchCoord (ix3 b r c) 1
      + (rowsDims N D B R wf).offCoord (ix3 b r c) 1 = c.val
    rw [GatherDims.batchCoord_eq_zero _ _ _ List.not_mem_nil]
    have hs : (rowsDims N D B R wf).start (ix3 b r c) idx 1 = 0 := by
      unfold GatherDims.start
      rw [dif_neg (show (1 : Fin 2) ∉ (rowsDims N D B R wf).startIndexMap from
        fun h => absurd (congrArg Fin.val (List.mem_singleton.mp h)) Nat.one_ne_zero)]
    rw [hs]
    simp only [Nat.add_zero, Nat.zero_add]
    unfold GatherDims.offCoord
    rw [dif_pos (show (1 : Fin 2) ∈ (rowsDims N D B R wf).sKept from (GatherDims.mem_sKept _ _).mpr
      ⟨fun h => absurd (congrArg Fin.val (List.mem_singleton.mp h)) Nat.one_ne_zero, List.not_mem_nil⟩)]
    rfl

/-- The dimension numbers of the batched column gather. -/
abbrev colsDims (B R D C : Nat)
    (wf : GatherDims.WF ⟨3, ![B, R, D]⟩ ⟨3, ![B, C, 1]⟩ ⟨3, ![B, R, C]⟩ [1] [2] [0] [2] [0] 2 ![1, R, 1]) :
    GatherDims ⟨3, ![B, R, D]⟩ ⟨3, ![B, C, 1]⟩ ⟨3, ![B, R, C]⟩ where
  offsetDims := [1]
  collapsedSliceDims := [2]
  operandBatchingDims := [0]
  startIndicesBatchingDims := [0]
  startIndexMap := [2]
  indexVectorDim := 2
  sliceSizes := ![1, R, 1]
  wf := wf

/-- THE BATCHED COLUMN GATHER READ AT (b, r, n). -/
theorem cols_gather_apply {B R D C w : Nat} (hD : 0 < D)
    (wf : GatherDims.WF ⟨3, ![B, R, D]⟩ ⟨3, ![B, C, 1]⟩ ⟨3, ![B, R, C]⟩ [1] [2] [0] [2] [0] 2 ![1, R, 1])
    (x : (⟨3, ![B, R, D]⟩ : Shape).Idx → α) (idx : IVec ⟨3, ![B, C, 1]⟩ w) (b : Fin B) (r : Fin R) (n : Fin C) :
    Host.gather (colsDims B R D C wf) x idx (ix3 b r n)
      = x (ix3 b r ⟨min (idx (ix3 b n (0 : Fin 1))).toInt.toNat (D - 1), by omega⟩) := by
  unfold Host.gather
  congr 1
  funext a
  refine Fin.ext ?_
  match a with
  | ⟨0, _⟩ =>
    show (colsDims B R D C wf).start (ix3 b r n) idx 0 + (colsDims B R D C wf).batchCoord (ix3 b r n) 0
      + (colsDims B R D C wf).offCoord (ix3 b r n) 0 = b.val
    rw [GatherDims.start_batching _ _ _ _ (show (0 : Fin 3) ∈ (colsDims B R D C wf).operandBatchingDims from
        List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 3) ∈ (colsDims B R D C wf).operandBatchingDims from List.mem_singleton.mpr rfl)]
    rfl
  | ⟨1, _⟩ =>
    show (colsDims B R D C wf).start (ix3 b r n) idx 1 + (colsDims B R D C wf).batchCoord (ix3 b r n) 1
      + (colsDims B R D C wf).offCoord (ix3 b r n) 1 = r.val
    have h10 : (1 : Fin 3) ∉ ([0] : List (Fin 3)) :=
      fun h => absurd (congrArg Fin.val (List.mem_singleton.mp h)) (by decide)
    have h12 : (1 : Fin 3) ∉ ([2] : List (Fin 3)) :=
      fun h => absurd (congrArg Fin.val (List.mem_singleton.mp h)) (by decide)
    rw [GatherDims.batchCoord_eq_zero _ _ _ h10]
    have hs : (colsDims B R D C wf).start (ix3 b r n) idx 1 = 0 := by
      unfold GatherDims.start
      rw [dif_neg h12]
    rw [hs]
    simp only [Nat.add_zero, Nat.zero_add]
    unfold GatherDims.offCoord
    rw [dif_pos (show (1 : Fin 3) ∈ (colsDims B R D C wf).sKept from (GatherDims.mem_sKept _ _).mpr ⟨h12, h10⟩)]
    rfl
  | ⟨2, _⟩ =>
    show (colsDims B R D C wf).start (ix3 b r n) idx 2 + (colsDims B R D C wf).batchCoord (ix3 b r n) 2
      + (colsDims B R D C wf).offCoord (ix3 b r n) 2 = _
    have h20 : (2 : Fin 3) ∉ ([0] : List (Fin 3)) :=
      fun h => absurd (congrArg Fin.val (List.mem_singleton.mp h)) (by decide)
    rw [GatherDims.batchCoord_eq_zero _ _ _ h20,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (colsDims B R D C wf).startIndexMap from List.mem_singleton.mpr rfl)]
    have hsi : (colsDims B R D C wf).siIdx (ix3 b r n) ⟨List.idxOf (2 : Fin 3) (colsDims B R D C wf).startIndexMap,
        List.idxOf_lt_length_iff.2 (List.mem_singleton.mpr rfl)⟩ = ix3 b n (0 : Fin 1) := by
      funext e; refine Fin.ext ?_
      match e with
      | ⟨0, _⟩ => rfl
      | ⟨1, _⟩ => rfl
      | ⟨2, _⟩ => rfl
    rw [hsi]
    rfl

end Cert.LibGather3

end
-- ==== Proof.RefValue.lean ====
/-
  The reference's result term is the specification `Spec.G` of the four arguments: read stage by stage.
-/
import proofs.«415122_j11725260718400_2_alg».proof.Proof.Gen.ReferenceIdeal.Read
import proofs.«415122_j11725260718400_2_alg».proof.Proof.Spec
import proofs.«415122_j11725260718400_2_alg».proof.Proof.LibGather3

noncomputable section

namespace Cert.RefValue

open Cert.ReferenceIdeal Cert.ReferenceIdeal.Gen Cert.ReferenceIdeal.Read Idealize.ShloMosaic Idealize.ShloMosaic.ValueIdx

/-- Two rank-2 indices with the same coordinates are equal. -/
local macro "idx2" : tactic =>
  `(tactic| (funext a; refine Fin.ext ?_; match a with | ⟨0, _⟩ => rfl | ⟨1, _⟩ => rfl))
/-- Two rank-3 indices with the same coordinates are equal. -/
local macro "idx3" : tactic =>
  `(tactic| (funext a; refine Fin.ext ?_; match a with | ⟨0, _⟩ => rfl | ⟨1, _⟩ => rfl | ⟨2, _⟩ => rfl))

section Stages
variable (x0 : FVec Ideal S32x1024x128 .f32) (x1 : IVec S32x1024 32) (x2 x3 : FVec Ideal S4000x4000 .f32)

/-! ## The ids, wrapped, and the four gathers -/

/-- The wrapped id at (b, n), stage v4. -/
theorem v4_at (b : Fin 32) (n : Fin 1024) : val_main_v4 (F := Ideal) x1 (ix2 b n) = Spec.wrap (x1 (ix2 b n)) := by
  rw [val_main_v4_apply, val_main_v1_apply, val_main_v3_apply, val_main_v0_apply, val_main_v2_apply,
    val_main_c_apply, val_main_c_0_apply]
  rfl

/-- The same id as a start index at (b, R, 0). -/
theorem v5_at (b : Fin 32) (R : Fin 1024) (z : Fin 1) :
    val_main_v5 (F := Ideal) x1 (ix3 b R z) = Spec.wrap (x1 (ix2 b R)) := by
  rw [val_main_v5_apply, show idx_main_v5 (ix3 b R z) = ix2 b R from by idx2]
  exact v4_at x1 b R

/-- The row gather v6 at (b, R, c): the table's entry at (row of id[b, R], c). -/
theorem v6_at (b : Fin 32) (R : Fin 1024) (c : Fin 4000) :
    val_main_v6 (F := Ideal) x1 x2 (ix3 b R c) = x2 (ix2 (Spec.rowOf (x1 (ix2 b R))) c) := by
  unfold val_main_v6
  refine (LibGather3.rows_gather_apply (N := 4000) (D := 4000) (B := 32) (R := 1024) (by decide) _ x2
    (val_main_v5 (F := Ideal) x1) b R c).trans ?_
  exact congrArg (fun r => x2 (ix2 r c)) (Fin.ext (by
    show min (val_main_v5 (F := Ideal) x1 (ix3 b R (0 : Fin 1))).toInt.toNat (4000 - 1)
      = min (Spec.wrap (x1 (ix2 b R))).toInt.toNat 3999
    rw [v5_at]))

/-- The wrapped id at (b, n), stage v11. -/
theorem v11_at (b : Fin 32) (n : Fin 1024) : val_main_v11 (F := Ideal) x1 (ix2 b n) = Spec.wrap (x1 (ix2 b n)) := by
  rw [val_main_v11_apply, val_main_v8_apply, val_main_v10_apply, val_main_v7_apply, val_main_v9_apply,
    val_main_c_1_apply, val_main_c_2_apply]
  rfl

/-- The same id as a start index at (b, R, 0). -/
theorem v12_at (b : Fin 32) (R : Fin 1024) (z : Fin 1) :
    val_main_v12 (F := Ideal) x1 (ix3 b R z) = Spec.wrap (x1 (ix2 b R)) := by
  rw [val_main_v12_apply, show idx_main_v12 (ix3 b R z) = ix2 b R from by idx2]
  exact v11_at x1 b R

/-- The column gather v13 at (b, R, n): the table's entry at (row of id[b, R], row of id[b, n]). -/
theorem v13_at (b : Fin 32) (R n : Fin 1024) :
    val_main_v13 (F := Ideal) x1 x2 (ix3 b R n) = Spec.sel x1 x2 b R n := by
  unfold val_main_v13
  refine (LibGather3.cols_gather_apply (B := 32) (R := 1024) (D := 4000) (C := 1024) (by decide) _
    (val_main_v6 (F := Ideal) x1 x2) (val_main_v12 (F := Ideal) x1) b R n).trans ?_
  rw [v6_at]
  exact congrArg (fun r => x2 (ix2 (Spec.rowOf (x1 (ix2 b R))) r)) (Fin.ext (by
    show min (val_main_v12 (F := Ideal) x1 (ix3 b n (0 : Fin 1))).toInt.toNat (4000 - 1)
      = min (Spec.wrap (x1 (ix2 b n))).toInt.toNat 3999
    rw [v12_at]))

/-- The wrapped id at (b, n), stage v18. -/
theorem v18_at (b : Fin 32) (n : Fin 1024) : val_main_v18 (F := Ideal) x1 (ix2 b n) = Spec.wrap (x1 (ix2 b n)) := by
  rw [val_main_v18_apply, val_main_v15_apply, val_main_v17_apply, val_main_v14_apply, val_main_v16_apply,
    val_main_c_3_apply, val_main_c_4_apply]
  rfl

/-- The same id as a start index at (b, R, 0). -/
theorem v19_at (b : Fin 32) (R : Fin 1024) (z : Fin 1) :
    val_main_v19 (F := Ideal) x1 (ix3 b R z) = Spec.wrap (x1 (ix2 b R)) := by
  rw [val_main_v19_apply, show idx_main_v19 (ix3 b R z) = ix2 b R from by idx2]
  exact v18_at x1 b R

/-- The row gather v20 at (b, R, c): the table's entry at (row of id[b, R], c). -/
theorem v20_at (b : Fin 32) (R : Fin 1024) (c : Fin 4000) :
    val_main_v20 (F := Ideal) x1 x3 (ix3 b R c) = x3 (ix2 (Spec.rowOf (x1 (ix2 b R))) c) := by
  unfold val_main_v20
  refine (LibGather3.rows_gather_apply (N := 4000) (D := 4000) (B := 32) (R := 1024) (by decide) _ x3
    (val_main_v19 (F := Ideal) x1) b R c).trans ?_
  exact congrArg (fun r => x3 (ix2 r c)) (Fin.ext (by
    show min (val_main_v19 (F := Ideal) x1 (ix3 b R (0 : Fin 1))).toInt.toNat (4000 - 1)
      = min (Spec.wrap (x1 (ix2 b R))).toInt.toNat 3999
    rw [v19_at]))

/-- The wrapped id at (b, n), stage v25. -/
theorem v25_at (b : Fin 32) (n : Fin 1024) : val_main_v25 (F := Ideal) x1 (ix2 b n) = Spec.wrap (x1 (ix2 b n)) := by
  rw [val_main_v25_apply, val_main_v22_apply, val_main_v24_apply, val_main_v21_apply, val_main_v23_apply,
    val_main_c_5_apply, val_main_c_6_apply]
  rfl

/-- The same id as a start index at (b, R, 0). -/
theorem v26_at (b : Fin 32) (R : Fin 1024) (z : Fin 1) :
    val_main_v26 (F := Ideal) x1 (ix3 b R z) = Spec.wrap (x1 (ix2 b R)) := by
  rw [val_main_v26_apply, show idx_main_v26 (ix3 b R z) = ix2 b R from by idx2]
  exact v25_at x1 b R

/-- The column gather v27 at (b, R, n): the table's entry at (row of id[b, R], row of id[b, n]). -/
theorem v27_at (b : Fin 32) (R n : Fin 1024) :
    val_main_v27 (F := Ideal) x1 x3 (ix3 b R n) = Spec.sel x1 x3 b R n := by
  unfold val_main_v27
  refine (LibGather3.cols_gather_apply (B := 32) (R := 1024) (D := 4000) (C := 1024) (by decide) _
    (val_main_v20 (F := Ideal) x1 x3) (val_main_v26 (F := Ideal) x1) b R n).trans ?_
  rw [v20_at]
  exact congrArg (fun r => x3 (ix2 (Spec.rowOf (x1 (ix2 b R))) r)) (Fin.ext (by
    show min (val_main_v26 (F := Ideal) x1 (ix3 b n (0 : Fin 1))).toInt.toNat (4000 - 1)
      = min (Spec.wrap (x1 (ix2 b n))).toInt.toNat 3999
    rw [v26_at]))

/-! ## The diagonal mask and the two masked tables -/

/-- The mask at (R, n) is set exactly on the diagonal: both coordinates are below 2 ^ 32. -/
theorem v32_at (R n : Fin 1024) : val_main_v32 (F := Ideal) (ix2 R n) = if R.val = n.val then 1#1 else 0#1 := by
  rw [val_main_v32_apply, val_main_v31_apply, val_main_v28_apply, val_main_v29_apply, val_main_v30_apply,
    val_main_c_7_apply]
  show IntOp.cmpi .eq (IntOp.addi (BitVec.ofNat 32 R.val) 0#32) (BitVec.ofNat 32 n.val) = _
  have hR := R.isLt
  have hn := n.isLt
  by_cases h : R.val = n.val
  · rw [if_pos h, h]
    simp [IntOp.cmpi, IntOp.addi]
  · rw [if_neg h]
    have hne : BitVec.ofNat 32 R.val ≠ BitVec.ofNat 32 n.val := by
      intro e
      apply h
      have e' := congrArg BitVec.toNat e
      simp only [BitVec.toNat_ofNat] at e'
      omega
    have hb : (BitVec.ofNat 32 R.val == BitVec.ofNat 32 n.val) = false := beq_eq_false_iff_ne.mpr hne
    simp [IntOp.cmpi, IntOp.addi, hb]

/-- Stage v33 at (b, R, n): the selected entry, zero on the diagonal. -/
theorem v33_at (b : Fin 32) (R n : Fin 1024) :
    val_main_v33 (F := Ideal) x1 x2 (ix3 b R n) = Spec.aRow x1 x2 b R n := by
  rw [val_main_v33_apply, val_main_call0_v0_apply, val_main_call0_v1_apply, val_main_cst_apply, v13_at,
    show idx_main_call0_v0 (ix3 b R n) = ix2 R n from by idx2, v32_at]
  show Scalar.select (if R.val = n.val then 1#1 else 0#1) (Ideal.ofBits .f32 0x00000000#32) (Spec.sel x1 x2 b R n)
    = if R.val = n.val then 0 else Spec.sel x1 x2 b R n
  rw [Ideal.ofBits_zero_f32]
  by_cases h : R.val = n.val
  · rw [if_pos h, if_pos h, select_one]
  · rw [if_neg h, if_neg h, select_zero]

/-- Stage v34 at (b, R, n): the selected entry, zero on the diagonal. -/
theorem v34_at (b : Fin 32) (R n : Fin 1024) :
    val_main_v34 (F := Ideal) x1 x3 (ix3 b R n) = Spec.aRow x1 x3 b R n := by
  rw [val_main_v34_apply, val_main_call1_v0_apply, val_main_call1_v1_apply, val_main_cst_8_apply, v27_at,
    show idx_main_call1_v0 (ix3 b R n) = ix2 R n from by idx2, v32_at]
  show Scalar.select (if R.val = n.val then 1#1 else 0#1) (Ideal.ofBits .f32 0x00000000#32) (Spec.sel x1 x3 b R n)
    = if R.val = n.val then 0 else Spec.sel x1 x3 b R n
  rw [Ideal.ofBits_zero_f32]
  by_cases h : R.val = n.val
  · rw [if_pos h, if_pos h, select_one]
  · rw [if_neg h, if_neg h, select_zero]

/-- Stage v35 at (b, R, n): the masked weight in absolute value. -/
theorem v35_at (b : Fin 32) (R n : Fin 1024) :
    val_main_v35 (F := Ideal) x1 x3 (ix3 b R n) = Spec.wRow x1 x3 b R n := by
  rw [val_main_v35_apply, Ideal.hostAbsf_def, Ideal.absf_def, v34_at]
  rfl

/-! ## The softmax of a row -/

/-- The word 0xFF800000 reads −∞. -/
theorem ofBits_neg_inf : Ideal.ofBits .f32 0xFF800000#32 = (⊥ : EReal) := by
  simp [Ideal.ofBits, Ideal.ieee]

/-- The maximum-reduce v36 at (b, R): the row's largest entry. -/
theorem v36_at (b : Fin 32) (R : Fin 1024) :
    val_main_v36 (F := Ideal) x1 x3 (ix2 b R) = Spec.rowMax (Spec.wRow x1 x3 b R) := by
  unfold val_main_v36
  have hred : S32x1024x1024.Reduces [2] S32x1024 := by decide
  rw [Host.reduce_eq_fold_single FloatOps.maximumf _ _ reducesTo_S32x1024x1024_S32x1024_d2 hred h_S_ (ix2 b R)]
  have hf : (val_main_v35 (F := Ideal) x1 x3 ∘ hred.lift (ix2 b R)) = Spec.wRow x1 x3 b R := by
    funext k
    show val_main_v35 (F := Ideal) x1 x3 (hred.lift (ix2 b R) k) = _
    rw [show hred.lift (ix2 b R) k = ix3 b R k from by
      funext a
      refine Fin.ext ?_
      rw [hred.lift_val]
      match a with
      | ⟨0, _⟩ => rfl
      | ⟨1, _⟩ => rfl
      | ⟨2, _⟩ => rfl]
    exact v35_at x1 x3 b R k
  rw [hf, val_main_cst_9_apply]
  show Finset.fold max (Ideal.ofBits .f32 0xFF800000#32) (Spec.wRow x1 x3 b R) Finset.univ = _
  rw [ofBits_neg_inf]
  rfl

/-- Stage v38 at (b, R): −∞ joined with the row's maximum is the maximum. -/
theorem v38_at (b : Fin 32) (R : Fin 1024) :
    val_main_v38 (F := Ideal) x1 x3 (ix2 b R) = Spec.rowMax (Spec.wRow x1 x3 b R) := by
  rw [val_main_v38_apply, val_main_v37_apply, val_main_cst_10_apply, v36_at]
  show max (Ideal.ofBits .f32 0xFF800000#32) _ = _
  rw [ofBits_neg_inf]
  exact max_eq_right bot_le

/-- The maximum broadcast along the row. -/
theorem v40_at (b : Fin 32) (R n : Fin 1024) :
    val_main_v40 (F := Ideal) x1 x3 (ix3 b R n) = Spec.rowMax (Spec.wRow x1 x3 b R) := by
  rw [val_main_v40_apply, val_main_v39_apply,
    show idx_main_v39 (idx_main_v40 (ix3 b R n)) = ix2 b R from by idx2]
  exact v38_at x1 x3 b R

/-- The shifted exponential at (b, R, n). -/
theorem v42_at (b : Fin 32) (R n : Fin 1024) :
    val_main_v42 (F := Ideal) x1 x3 (ix3 b R n)
      = Ideal.exp (Spec.wRow x1 x3 b R n - Spec.rowMax (Spec.wRow x1 x3 b R)) := by
  rw [val_main_v42_apply, Ideal.hostUnary_exp_def, val_main_v41_apply, Ideal.subf_def, v35_at, v40_at]

/-- The row's sum of shifted exponentials. -/
theorem v43_at (b : Fin 32) (R : Fin 1024) :
    val_main_v43 (F := Ideal) x1 x3 (ix2 b R)
      = ∑ k : Fin 1024, Ideal.exp (Spec.wRow x1 x3 b R k - Spec.rowMax (Spec.wRow x1 x3 b R)) := by
  rw [val_main_v43_apply, val_main_cst_11_apply]
  show Ideal.ofBits .f32 0x00000000#32 + _ = _
  rw [Ideal.ofBits_zero_f32, zero_add]
  refine Finset.sum_congr rfl fun k _ => ?_
  rw [show idx_main_v43 (ix2 b R) k = ix3 b R k from by idx3]
  exact v42_at x1 x3 b R k

/-- That sum broadcast along the row. -/
theorem v45_at (b : Fin 32) (R n : Fin 1024) :
    val_main_v45 (F := Ideal) x1 x3 (ix3 b R n)
      = ∑ k : Fin 1024, Ideal.exp (Spec.wRow x1 x3 b R k - Spec.rowMax (Spec.wRow x1 x3 b R)) := by
  rw [val_main_v45_apply, val_main_v44_apply,
    show idx_main_v44 (idx_main_v45 (ix3 b R n)) = ix2 b R from by idx2]
  exact v43_at x1 x3 b R

/-- The softmax weight at (b, R, n). -/
theorem v46_at (b : Fin 32) (R n : Fin 1024) :
    val_main_v46 (F := Ideal) x1 x3 (ix3 b R n) = Spec.attn (Spec.wRow x1 x3 b R) n := by
  rw [val_main_v46_apply, Ideal.hostDivf_def, v42_at, v45_at]
  rfl

/-- The weighted interaction at (b, R, n). -/
theorem v47_at (b : Fin 32) (R n : Fin 1024) :
    val_main_v47 (F := Ideal) x1 x2 x3 (ix3 b R n)
      = Spec.aRow x1 x2 b R n * Spec.attn (Spec.wRow x1 x3 b R) n := by
  rw [val_main_v47_apply, Ideal.mulf_def, v33_at, v46_at]

end Stages

/-- THE REFERENCE IS THE SPECIFICATION. -/
theorem ref_eq_spec (x0 : FVec Ideal S32x1024x128 .f32) (x1 : IVec S32x1024 32) (x2 x3 : FVec Ideal S4000x4000 .f32) :
    Cert.ReferenceIdeal.Read.val_main_v48 (F := Ideal) x0 x1 x2 x3 = Cert.Spec.G x0 x1 x2 x3 := by
  funext j
  obtain ⟨b, R, f, rfl⟩ : ∃ (b : Fin 32) (R : Fin 1024) (f : Fin 128), j = ix3 b R f := ⟨j 0, j 1, j 2, eq_ix3 j⟩
  rw [Spec.G_ix3, val_main_v48_apply]
  unfold Spec.Gat Spec.rowOut
  refine Finset.sum_congr rfl fun k _ => ?_
  rw [show lidx_main_v48 (ix3 b R f) k = ix3 b R k from by idx3,
    show ridx_main_v48 (ix3 b R f) k = ix3 b k f from by idx3, v47_at]

end Cert.RefValue

end
-- ==== Proof.PreDecode.lean ====
/-
  The precondition's last conjunct, decoded: every id is a row number of the 4000-row tables.
-/
import proofs.«415122_j11725260718400_2_alg».proof.Pre_finite_inputs
import proofs.«415122_j11725260718400_2_alg».proof.Proof.Gen.Pre_finite_inputs
import proofs.«415122_j11725260718400_2_alg».proof.Proof.Spec
import Idealize.ShloMosaic.Lib.ReduceAll
import Idealize.ShloMosaic.Lib.StableHlo.Predicate

noncomputable section

namespace Cert.PreDecode

open Idealize.ShloMosaic Idealize.ShloMosaic.ValueIdx

variable {F : FTy → Type} [FloatOps F]

/-- A word that tests at least 0 and below 4000, both signed, is below 4000 read unsigned. -/
theorem toNat_lt_of_signed (x : BitVec 32) (h0 : IntOp.cmpi .sge x 0#32 = 1#1) (h1 : IntOp.cmpi .slt x 4000#32 = 1#1) :
    x.toNat < 4000 := by
  rw [IntOp.cmpi_sge] at h0
  rw [IntOp.cmpi_slt] at h1
  have e0 : (0#32 : BitVec 32).toInt = 0 := by decide
  have e1 : (4000#32 : BitVec 32).toInt = 4000 := by decide
  rw [e0] at h0
  rw [e1] at h1
  have hx := x.isLt
  rw [BitVec.toInt_eq_toNat_cond] at h0 h1
  split at h0 <;> omega

/-- If the precondition holds of four arrays, every id is in [0, 4000). -/
theorem ids_inRange [Cert.Pre_finite_inputs.Facts]
    (a0 : FVec F Cert.Pre_finite_inputs.S32x1024x128 .f32) (a1 : IVec Cert.Pre_finite_inputs.S32x1024 32)
    (a2 a3 : FVec F Cert.Pre_finite_inputs.S4000x4000 .f32)
    (h : Cert.Pre_finite_inputs.fn (F := F) a0 a1 a2 a3 = fun _ => 1#1) : Cert.Spec.InRange a1 := by
  intro b n
  have h0 := congrFun h ValueIdx.ix0
  dsimp only [Cert.Pre_finite_inputs.fn, Cert.Pre_finite_inputs.fn_part1] at h0
  -- the result of a reduction over every axis has one index
  haveI : Subsingleton Cert.Pre_finite_inputs.S_.Idx := ⟨fun a b => funext fun d => d.elim0⟩
  -- the last conjunct: the ids' range test holds at every position
  have hall := Host.reduce_andi_all _ _ _ _ _ (IntOp.andi_eq_one.1 h0).2 (ix2 b n)
  obtain ⟨hge, hlt⟩ := IntOp.andi_eq_one.1 hall
  exact toNat_lt_of_signed _ hge hlt

end Cert.PreDecode

end
-- ==== Proof.Pieces.lean ====
/-
  What one run of the kernel body leaves behind, as the body's own arithmetic: at a batch's first row tile the scratch
  buffer is rebuilt from the batch's ids (the one-hot table) and the result block is computed from that table; at the other
  tiles the scratch is kept and the result block is computed from what it holds.
-/
import proofs.«415122_j11725260718400_2_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a batch's first row tile the scratch ends holding the one-hot table of the ids block. -/
theorem scratch_first (c : Dev nD) (i : grid0.Coords) (arg2 : Memref sig .tc .vmem S1x1024x1 .i32) (harg2 : arg2.IsWhole) (arg3 : Memref sig .tc .vmem S1x1024x128 .f32) (harg3 : arg3.IsWhole) (arg4 : Memref sig .tc .vmem S1x256x4096 .bf16) (harg4 : arg4.IsWhole) (arg5 : Memref sig .tc .vmem S1x256x4096 .bf16) (harg5 : arg5.IsWhole) (arg6 : Memref sig .tc .vmem S1x256x128 .f32) (harg6 : arg6.IsWhole) (arg7 : Memref sig .tc .vmem S1024x4096 .bf16) (harg7 : arg7.IsWhole) (hc0 : cond0_0 i) (x0 : Vec F S1x1024x1 .i32) (x1 : Vec F S1x1024x128 .f32) (x2 : Vec F S1x256x4096 .bf16) (x3 : Vec F S1x256x4096 .bf16) :
    sout0_A_0 c i arg2 harg2 arg3 harg3 arg4 harg4 arg5 harg5 arg6 harg6 arg7 harg7 hc0 x0 x1 x2 x3 = k0_pay2 x0 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg2.read_unread, harg3.read_unread, harg4.read_unread, harg5.read_unread, View.ld_unit_zero (S := S1x1024x1) hz3, View.ld_unit_zero (S := S1x1024x128) hz3, View.ld_unit_zero (S := S1x256x4096) hz3, View.ld_unit_zero (S := S1024x4096) hz2, View.readCov_unit_zero (S := S1024x4096) _ hz2]

/-- At a batch's first row tile the result block is computed from the table just built. -/
theorem out_first (c : Dev nD) (i : grid0.Coords) (arg2 : Memref sig .tc .vmem S1x1024x1 .i32) (harg2 : arg2.IsWhole) (arg3 : Memref sig .tc .vmem S1x1024x128 .f32) (harg3 : arg3.IsWhole) (arg4 : Memref sig .tc .vmem S1x256x4096 .bf16) (harg4 : arg4.IsWhole) (arg5 : Memref sig .tc .vmem S1x256x4096 .bf16) (harg5 : arg5.IsWhole) (arg6 : Memref sig .tc .vmem S1x256x128 .f32) (harg6 : arg6.IsWhole) (arg7 : Memref sig .tc .vmem S1024x4096 .bf16) (harg7 : arg7.IsWhole) (hc0 : cond0_0 i) (x0 : Vec F S1x1024x1 .i32) (x1 : Vec F S1x1024x128 .f32) (x2 : Vec F S1x256x4096 .bf16) (x3 : Vec F S1x256x4096 .bf16) :
    out0_A_4 c i arg2 harg2 arg3 harg3 arg4 harg4 arg5 harg5 arg6 harg6 arg7 harg7 hc0 x0 x1 x2 x3 = k0_pay1 (k0_pay3 i (k0_pay2 x0) x2 x3 x1) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz3]
  simp only [View.readAt_eq_ld, harg2.read_unread, harg3.read_unread, harg4.read_unread, harg5.read_unread, View.ld_unit_zero (S := S1x1024x1) hz3, View.ld_unit_zero (S := S1x1024x128) hz3, View.ld_unit_zero (S := S1x256x4096) hz3, View.ld_unit_zero (S := S1024x4096) hz2, View.readCov_unit_zero (S := S1024x4096) _ hz2]

/-- At the other row tiles the result block is computed from the table the scratch holds. -/
theorem out_later (c : Dev nD) (i : grid0.Coords) (arg2 : Memref sig .tc .vmem S1x1024x1 .i32) (harg2 : arg2.IsWhole) (arg3 : Memref sig .tc .vmem S1x1024x128 .f32) (harg3 : arg3.IsWhole) (arg4 : Memref sig .tc .vmem S1x256x4096 .bf16) (harg4 : arg4.IsWhole) (arg5 : Memref sig .tc .vmem S1x256x4096 .bf16) (harg5 : arg5.IsWhole) (arg6 : Memref sig .tc .vmem S1x256x128 .f32) (harg6 : arg6.IsWhole) (arg7 : Memref sig .tc .vmem S1024x4096 .bf16) (harg7 : arg7.IsWhole) (hc0 : ¬cond0_0 i) (x0 : Vec F S1x1024x1 .i32) (x1 : Vec F S1x1024x128 .f32) (x2 : Vec F S1x256x4096 .bf16) (x3 : Vec F S1x256x4096 .bf16) (xs0 : Vec F S1024x4096 .bf16) :
    out0_B_4 c i arg2 harg2 arg3 harg3 arg4 harg4 arg5 harg5 arg6 harg6 arg7 harg7 hc0 x0 x1 x2 x3 xs0 = k0_pay1 (k0_pay3 i xs0 x2 x3 x1) := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero hz3]
  simp only [View.readAt_eq_ld, harg3.read_unread, harg4.read_unread, harg5.read_unread, View.ld_unit_zero (S := S1x1024x1) hz3, View.ld_unit_zero (S := S1x1024x128) hz3, View.ld_unit_zero (S := S1x256x4096) hz3, View.ld_unit_zero (S := S1024x4096) hz2, harg7.read_unread]

end Cert.KernelIdeal.Pieces

end
-- ==== Proof.KBlocks.lean ====
/-
  The kernel's blocks as functions of the arrays the region finds, and what every grid point leaves behind.

  The grid has 128 points: point t works on batch t / 4 and row tile t % 4. The ids block and the features block of a
  point are its batch's (the same for the four tiles of a batch); the two selected-rows blocks and the result block are
  rows (t % 4) · 256 … + 255 of its batch.
-/
import proofs.«415122_j11725260718400_2_alg».proof.Proof.Gen.KernelIdeal.Value
import proofs.«415122_j11725260718400_2_alg».proof.Proof.Pieces
import Idealize.ShloMosaic.Lib.ValueIdx

set_option maxRecDepth 16384

noncomputable section

namespace Cert.KernelIdeal.KBlocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The printed index maps and the row-tile coordinate, decided over the grid. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0
    ∧ ((grid0.coords t) (1 : Fin 2)).val = t.val % 4 :=
  (by decide +kernel : ∀ t : Fin grid0.N, _)

theorem N_eq : cfg0.N = 128 := N_0

/-- The batch of a grid point. -/
abbrev batchOf (t : Fin cfg0.N) : Fin 32 := ⟨t.val / 4, by have := t.isLt; have := N_eq; omega⟩

/-- Each input block of a point, named at its literal type. -/
abbrev idsBlk (c : Dev nD) (t : Fin cfg0.N) : Vec F S1x1024x1 .i32 := iblk m c 0 t
abbrev featBlk (c : Dev nD) (t : Fin cfg0.N) : Vec F S1x1024x128 .f32 := iblk m c 1 t
abbrev giBlk (c : Dev nD) (t : Fin cfg0.N) : Vec F S1x256x4096 .bf16 := iblk m c 2 t
abbrev gwBlk (c : Dev nD) (t : Fin cfg0.N) : Vec F S1x256x4096 .bf16 := iblk m c 3 t

/-- The ids block of a point is its batch's column of ids. -/
theorem idsBlk_apply (c : Dev nD) (t : Fin cfg0.N) (n : Fin 1024) :
    idsBlk m c t (ix3 (0 : Fin 1) n (0 : Fin 1)) = (V m c main_v18 : S32x1024x1.Idx → Elt F .i32) (ix3 (batchOf t) n (0 : Fin 1)) := by
  obtain ⟨e0, e1, e2, -⟩ := idx_facts t
  show V m c main_v18 (((cfg0.win 0).blk t).view.emb (ix3 (0 : Fin 1) n (0 : Fin 1))) = V m c main_v18 (ix3 (batchOf t) n (0 : Fin 1))
  congr 1
  funext a; apply Fin.ext
  match a with
  | ⟨0, _⟩ => show win0_0.index t (0 : Fin 3) * 1 + 1 * 0 = t.val / 4; omega
  | ⟨1, _⟩ => show win0_0.index t (1 : Fin 3) * 1024 + 1 * n.val = n.val; omega
  | ⟨2, _⟩ => show win0_0.index t (2 : Fin 3) * 1 + 1 * 0 = 0; omega

/-- Row `r` of the row tile of point `t`, as a row of the batch. -/
abbrev tileRow (t : Fin cfg0.N) (r : Fin 256) : Fin 1024 := ⟨(t.val % 4) * 256 + r.val, by have := r.isLt; omega⟩

/-- The features block of a point is its batch's features. -/
theorem featBlk_apply (c : Dev nD) (t : Fin cfg0.N) (n : Fin 1024) (f : Fin 128) :
    featBlk m c t (ix3 (0 : Fin 1) n f) = (V m c main_arg0 : S32x1024x128.Idx → Elt F .f32) (ix3 (batchOf t) n f) := by
  obtain ⟨-, -, -, e0, e1, e2, -⟩ := idx_facts t
  show V m c main_arg0 (((cfg0.win 1).blk t).view.emb (ix3 (0 : Fin 1) n f)) = V m c main_arg0 (ix3 (batchOf t) n f)
  congr 1
  funext a; apply Fin.ext
  match a with
  | ⟨0, _⟩ => show win0_1.index t (0 : Fin 3) * 1 + 1 * 0 = t.val / 4; omega
  | ⟨1, _⟩ => show win0_1.index t (1 : Fin 3) * 1024 + 1 * n.val = n.val; omega
  | ⟨2, _⟩ => show win0_1.index t (2 : Fin 3) * 128 + 1 * f.val = f.val; omega

/-- The block of selected interaction rows of a point: rows of its row tile, in its batch. -/
theorem giBlk_apply (c : Dev nD) (t : Fin cfg0.N) (r : Fin 256) (v : Fin 4096) :
    giBlk m c t (ix3 (0 : Fin 1) r v) = (V m c main_v10 : S32x1024x4096.Idx → Elt F .bf16) (ix3 (batchOf t) (tileRow t r) v) := by
  obtain ⟨-, -, -, -, -, -, e0, e1, e2, -⟩ := idx_facts t
  show V m c main_v10 (((cfg0.win 2).blk t).view.emb (ix3 (0 : Fin 1) r v)) = V m c main_v10 (ix3 (batchOf t) (tileRow t r) v)
  congr 1
  funext a; apply Fin.ext
  match a with
  | ⟨0, _⟩ => show win0_2.index t (0 : Fin 3) * 1 + 1 * 0 = t.val / 4; omega
  | ⟨1, _⟩ => show win0_2.index t (1 : Fin 3) * 256 + 1 * r.val = (t.val % 4) * 256 + r.val; omega
  | ⟨2, _⟩ => show win0_2.index t (2 : Fin 3) * 4096 + 1 * v.val = v.val; omega

/-- The block of selected weight rows of a point, likewise. -/
theorem gwBlk_apply (c : Dev nD) (t : Fin cfg0.N) (r : Fin 256) (v : Fin 4096) :
    gwBlk m c t (ix3 (0 : Fin 1) r v) = (V m c main_v17 : S32x1024x4096.Idx → Elt F .bf16) (ix3 (batchOf t) (tileRow t r) v) := by
  obtain ⟨-, -, -, -, -, -, -, -, -, e0, e1, e2, -⟩ := idx_facts t
  show V m c main_v17 (((cfg0.win 3).blk t).view.emb (ix3 (0 : Fin 1) r v)) = V m c main_v17 (ix3 (batchOf t) (tileRow t r) v)
  congr 1
  funext a; apply Fin.ext
  match a with
  | ⟨0, _⟩ => show win0_3.index t (0 : Fin 3) * 1 + 1 * 0 = t.val / 4; omega
  | ⟨1, _⟩ => show win0_3.index t (1 : Fin 3) * 256 + 1 * r.val = (t.val % 4) * 256 + r.val; omega
  | ⟨2, _⟩ => show win0_3.index t (2 : Fin 3) * 4096 + 1 * v.val = v.val; omega

/-- Two points of one batch have the same ids block. -/
theorem idsBlk_congr (c : Dev nD) (t t' : Fin cfg0.N) (h : t.val / 4 = t'.val / 4) : idsBlk m c t = idsBlk m c t' := by
  funext y
  obtain ⟨a, n, z, rfl⟩ : ∃ (a : Fin 1) (n : Fin 1024) (z : Fin 1), y = ix3 a n z := ⟨y 0, y 1, y 2, eq_ix3 y⟩
  obtain rfl : a = 0 := Subsingleton.elim _ _
  obtain rfl : z = 0 := Subsingleton.elim _ _
  rw [idsBlk_apply, idsBlk_apply]
  have hb : batchOf t = batchOf t' := Fin.ext h
  rw [hb]

/-- THE SCRATCH AFTER EVERY POINT holds the one-hot table of the point's batch: rebuilt at the batch's first row tile, kept
    at the other three. -/
theorem scratch_eq (c : Dev nD) : ∀ (n : ℕ) (hn : n < cfg0.N), (outsAt0 m c n hn).2 = k0_pay2 (idsBlk m c ⟨n, hn⟩) := by
  intro n
  induction n with
  | zero =>
    intro hn
    rw [outsAt0_A m c ⟨0, hn⟩ (Nat.zero_mod _)]; dsimp only
    exact Pieces.scratch_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | succ k ih =>
    intro hn
    by_cases h0 : (k + 1) % 4 = 0
    · rw [outsAt0_A m c ⟨k + 1, hn⟩ h0]; dsimp only
      exact Pieces.scratch_first c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) (ms0_4 ⟨k + 1, hn⟩) (hs0_4 ⟨k + 1, hn⟩) scM0_0 (Memref.isWhole_whole _) ((hcond0_0 ⟨k + 1, hn⟩).mpr h0) (iblk m c 0 ⟨k + 1, hn⟩) (iblk m c 1 ⟨k + 1, hn⟩) (iblk m c 2 ⟨k + 1, hn⟩) (iblk m c 3 ⟨k + 1, hn⟩)
    · rw [outsAt0_B m c ⟨k + 1, hn⟩ h0]; dsimp only
      unfold sout0_B_0
      have hk : k < cfg0.N := Nat.lt_of_succ_lt hn
      refine (ih hk).trans (congrArg k0_pay2 (idsBlk_congr m c ⟨k, hk⟩ ⟨k + 1, hn⟩ ?_))
      show k / 4 = (k + 1) / 4
      omega

/-- WHAT EVERY POINT LEAVES IN THE RESULT BLOCK: the body's arithmetic on the point's blocks and its batch's one-hot table. -/
theorem out_eq (c : Dev nD) (t : Fin cfg0.N) :
    (outsAt0 m c t.val t.isLt).1
      = k0_pay1 (k0_pay3 (grid0.coords t) (k0_pay2 (idsBlk m c t)) (giBlk m c t) (gwBlk m c t) (featBlk m c t)) := by
  by_cases h0 : t.val % 4 = 0
  · rw [outsAt0_A m c t h0]; dsimp only
    exact Pieces.out_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)
  · rw [outsAt0_B m c t h0]; dsimp only
    have hpos : 0 < t.val := Nat.pos_of_ne_zero (fun h => h0 (by rw [h]))
    have hk : t.val - 1 < cfg0.N := Nat.lt_of_le_of_lt (Nat.sub_le _ _) t.isLt
    refine (Pieces.out_later c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) hk).2).trans ?_
    rw [scratch_eq m c (t.val - 1) hk, idsBlk_congr m c ⟨t.val - 1, hk⟩ t (by show (t.val - 1) / 4 = t.val / 4; omega)]

end Cert.KernelIdeal.KBlocks

end
-- ==== Proof.HostPrefix.lean ====
/-
  What the kernel's region finds in the three arrays the host computes before it: the ids as a column, and the rows of the
  two tables that the ids select, each row padded with zeros from 4000 to 4096 columns.
-/
import proofs.«415122_j11725260718400_2_alg».proof.Proof.Gen.KernelIdeal.Frame
import proofs.«415122_j11725260718400_2_alg».proof.Proof.Spec
import proofs.«415122_j11725260718400_2_alg».proof.Proof.LibGather3
import Idealize.ShloMosaic.Lib.KernelVsHost

noncomputable section

namespace Cert.KernelIdeal.HostPrefix

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The four argument arrays of core `c`, at the specification's types. -/
abbrev feat (c : Dev nD) : Cert.Spec.SFeat.Idx → EReal := m ((c : Thread nD τ).loc main_arg0)
abbrev ids (c : Dev nD) : IVec Cert.Spec.SIds 32 := m ((c : Thread nD τ).loc main_arg1)
abbrev matM (c : Dev nD) : Cert.Spec.SMat.Idx → EReal := m ((c : Thread nD τ).loc main_arg2)
abbrev matW (c : Dev nD) : Cert.Spec.SMat.Idx → EReal := m ((c : Thread nD τ).loc main_arg3)

/-- The features are as launched. -/
theorem V_feat (c : Dev nD) : (V m c main_arg0 : S32x1024x128.Idx → EReal) = feat m c := V_main_arg0 m c

/-! ## The host operations' pieces, read at an index -/

/-- A table of 4000 columns converted to the narrow format and padded to 4096 columns with the float of the integer 0. -/
def padded (x : FVec Ideal S4000x4000 .f32) : FVec Ideal S4000x4096 .bf16 :=
  pad S4000x4096 ![0, 0] ![0, 96] ![0, 0] (truncf .bf16 x bitsLt_bf16_f32)
    (sitofp .bf16 (constantI S_ 32 0#32) : FVec Ideal S_ .bf16) pads_S4000x4000_S4000x4096_000_0960 h_S_

/-- The padded table at (r, v): the table's entry in the first 4000 columns, zero in the last 96. -/
theorem padded_apply (x : FVec Ideal S4000x4000 .f32) (r : Fin 4000) (v : Fin 4096) :
    padded x (ix2 r v) = if h : v.val < 4000 then x (ix2 r ⟨v.val, h⟩) else 0 := by
  unfold padded
  by_cases hv : v.val < 4000
  · rw [dif_pos hv]
    refine (pad_apply_of_inside _ _ _ _ _ pads_S4000x4000_S4000x4096_000_0960 h_S_ (ix2 r v) (ix2 r ⟨v.val, hv⟩)
      (fun a => ?_)).trans ?_
    · match a with
      | ⟨0, _⟩ => show r.val = 0 + r.val * (0 + 1); omega
      | ⟨1, _⟩ => show v.val = 0 + v.val * (0 + 1); omega
    · rfl
  · rw [dif_neg hv]
    refine (pad_apply_of_not_inside _ _ _ _ _ pads_S4000x4000_S4000x4096_000_0960 h_S_ (ix2 r v) (1 : Fin 2) ?_).trans ?_
    · show ¬(0 ≤ v.val ∧ (v.val - 0) % (0 + 1) = 0 ∧ (v.val - 0) / (0 + 1) < 4000)
      omega
    · show ((((0#32 : BitVec 32).toInt : ℤ) : ℝ) : EReal) = 0
      simp

/-- The ids, each wrapped as a negative index is, as a column per batch. -/
def wrapCol (i : IVec S32x1024 32) : IVec S32x1024x1 32 :=
  broadcastInDim S32x1024x1 ![0, 1] bcast_S32x1024_S32x1024x1_0_1
    (select (cmpi .slt i (broadcastInDim S32x1024 ![] bcast_S_S32x1024 (constantI S_ 32 0#32)))
      (addi i (broadcastInDim S32x1024 ![] bcast_S_S32x1024 (constantI S_ 32 4000#32))) i)

/-- The column's entry at (b, n) is the wrapped id of (b, n). -/
theorem wrapCol_apply (i : IVec S32x1024 32) (b : Fin 32) (n : Fin 1024) (u : Fin 1) :
    wrapCol i (ix3 b n u) = Cert.Spec.wrap (i (ix2 b n)) := by
  unfold wrapCol
  refine (broadcastInDim_apply _ bcast_S32x1024_S32x1024x1_0_1 _ (ix3 b n u) (ix2 b n) (fun a => match a with
    | ⟨0, _⟩ => by show b.val = if (32 : Nat) = 1 then 0 else b.val; rw [if_neg (by decide)]
    | ⟨1, _⟩ => by show n.val = if (1024 : Nat) = 1 then 0 else n.val; rw [if_neg (by decide)])).trans ?_
  rfl

/-- The rows of the padded table that the wrapped ids select, at (b, R, v). -/
theorem gathered_apply (x : FVec Ideal S4000x4000 .f32) (i : IVec S32x1024 32) (b : Fin 32) (R : Fin 1024) (v : Fin 4096) :
    Host.gather gather_S4000x4096_S32x1024x1_S32x1024x4096_2_0_n_n_0_2_14096 (padded x) (wrapCol i) (ix3 b R v)
      = if h : v.val < 4000 then x (ix2 (Cert.Spec.rowOf (i (ix2 b R))) ⟨v.val, h⟩) else 0 := by
  refine (Cert.LibGather3.rows_gather_apply (N := 4000) (D := 4096) (B := 32) (R := 1024) (by decide)
    gather_S4000x4096_S32x1024x1_S32x1024x4096_2_0_n_n_0_2_14096_wf (padded x) (wrapCol i) b R v).trans ?_
  refine (congrArg (fun r => padded x (ix2 r v))
    (Fin.ext ?_ : _ = Cert.Spec.rowOf (i (ix2 b R)))).trans (padded_apply x _ v)
  show min (wrapCol i (ix3 b R (0 : Fin 1))).toInt.toNat (4000 - 1) = min (Cert.Spec.wrap (i (ix2 b R))).toInt.toNat 3999
  rw [wrapCol_apply]

/-- The ids reshaped to a column per batch, at (b, n). -/
theorem reshaped_apply (i : IVec S32x1024 32) (b : Fin 32) (n : Fin 1024) (u : Fin 1) :
    shapeCast S32x1024x1 i shapeCasts_S32x1024_S32x1024x1 (ix3 b n u) = i (ix2 b n) := by
  refine shapeCast_apply i shapeCasts_S32x1024_S32x1024x1 (ix3 b n u) (ix2 b n) ?_
  have hu : u.val = 0 := by omega
  rw [Shape.rowMajor_val_three, Shape.rowMajor_val_two]
  show b.val * 1024 + n.val = (b.val * 1024 + n.val) * 1 + u.val
  omega

/-! ## The three arrays as the host operations' terms -/

/-- The column of ids the region finds is the reshape of the ids as launched. -/
theorem V_ids_term (c : Dev nD) :
    (V m c main_v18 : S32x1024x1.Idx → BitVec 32) = shapeCast S32x1024x1 (ids m c) shapeCasts_S32x1024_S32x1024x1 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

/-- The interaction rows the region finds: the rows of the padded interaction table that the wrapped ids select. -/
theorem V_gi_term (c : Dev nD) :
    (V m c main_v10 : S32x1024x4096.Idx → EReal)
      = Host.gather gather_S4000x4096_S32x1024x1_S32x1024x4096_2_0_n_n_0_2_14096 (padded (matM m c)) (wrapCol (ids m c)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

/-- The weight rows the region finds: the rows of the padded weight table that the wrapped ids select. -/
theorem V_gw_term (c : Dev nD) :
    (V m c main_v17 : S32x1024x4096.Idx → EReal)
      = Host.gather gather_S4000x4096_S32x1024x1_S32x1024x4096_2_0_n_n_0_2_14096 (padded (matW m c)) (wrapCol (ids m c)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

/-! ## The three arrays read at an index -/

/-- The ids, reshaped to a column per batch. -/
theorem V_ids (c : Dev nD) (b : Fin 32) (n : Fin 1024) :
    (V m c main_v18 : S32x1024x1.Idx → BitVec 32) (ix3 b n (0 : Fin 1)) = ids m c (ix2 b n) :=
  (congrFun (V_ids_term m c) _).trans (reshaped_apply (ids m c) b n 0)

/-- The selected rows of the interaction table, padded with zeros. -/
theorem V_gi (c : Dev nD) (b : Fin 32) (R : Fin 1024) (v : Fin 4096) :
    (V m c main_v10 : S32x1024x4096.Idx → EReal) (ix3 b R v)
      = if h : v.val < 4000 then matM m c (ix2 (Cert.Spec.rowOf (ids m c (ix2 b R))) ⟨v.val, h⟩) else 0 :=
  (congrFun (V_gi_term m c) _).trans (gathered_apply (matM m c) (ids m c) b R v)

/-- The selected rows of the weight table, padded with zeros. -/
theorem V_gw (c : Dev nD) (b : Fin 32) (R : Fin 1024) (v : Fin 4096) :
    (V m c main_v17 : S32x1024x4096.Idx → EReal) (ix3 b R v)
      = if h : v.val < 4000 then matW m c (ix2 (Cert.Spec.rowOf (ids m c (ix2 b R))) ⟨v.val, h⟩) else 0 :=
  (congrFun (V_gw_term m c) _).trans (gathered_apply (matW m c) (ids m c) b R v)

end Cert.KernelIdeal.HostPrefix

end
-- ==== Proof.Payload.lean ====
/-
  The kernel body's two computed values read at an index, at the ideal instance: the one-hot table it keeps in its scratch
  buffer, and a block of the result from that table, a block of each selected-rows array and the batch's features.
-/
import proofs.«415122_j11725260718400_2_alg».proof.Proof.Gen.KernelIdeal.Skeleton
import proofs.«415122_j11725260718400_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-! ### The column layouts and the indicator of a comparison -/

/-- A column `[a, 1]` broadcast along a new last extent reads its row's one entry. -/
theorem broadcastTo_a1_ab_apply {α : Type} {a b : ℕ} (c : (⟨2, ![a, 1]⟩ : Shape).Idx → α)
    (h : (⟨2, ![a, 1]⟩ : Shape).Broadcasts ⟨2, ![a, b]⟩) (p : Fin a) (q : Fin b) :
    broadcastTo ⟨2, ![a, b]⟩ c h (ix2 p q) = c (ix2 p (0 : Fin 1)) := by
  refine broadcastTo_apply c h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, a, 1]` array cast to `[a, 1]` reads, at `(p, 0)`, the operand at `(0, p, 0)`. -/
theorem shapeCast_1a1_a1_apply {α : Type} {a : ℕ} (x : (⟨3, ![1, a, 1]⟩ : Shape).Idx → α)
    (h : (⟨3, ![1, a, 1]⟩ : Shape).ShapeCasts ⟨2, ![a, 1]⟩) (p : Fin a) (u : Fin 1) :
    shapeCast ⟨2, ![a, 1]⟩ x h (ix2 p u) = x (ix3 (0 : Fin 1) p (0 : Fin 1)) :=
  shapeCast_apply x h _ _ (by
    have hu : u.val = 0 := by omega
    rw [Shape.rowMajor_val_three, Shape.rowMajor_val_two]
    show (0 * a + p.val) * 1 + 0 = p.val * 1 + u.val
    rw [hu, Nat.zero_mul, Nat.zero_add])

/-- The integer 0 or 1 of a comparison's bit, widened and converted, is the indicator of equality. -/
theorem sitofp_cmpi_eq (a b : BitVec 32) :
    (FloatOps.sitofp (F := Ideal) .f32 ((IntOp.cmpi .eq a b).setWidth 32) : EReal) = if a = b then (1 : EReal) else 0 := by
  show (((((IntOp.cmpi .eq a b).setWidth 32).toInt : ℤ) : ℝ) : EReal) = _
  by_cases h : a = b
  · rw [if_pos h]; subst h; simp [IntOp.cmpi]
  · rw [if_neg h]
    have hb : (a == b) = false := by simpa using h
    simp [IntOp.cmpi, hb]

/-- Row `n` of the one-hot table is 1 at the column whose number is id `n` and 0 elsewhere. -/
theorem pay2_apply (x : Vec Ideal S1x1024x1 .i32) (n : Fin 1024) (v : Fin 4096) :
    k0_pay2 (F := Ideal) x (ix2 n v)
      = if (x (ix3 (0 : Fin 1) n (0 : Fin 1)) : BitVec 32) = BitVec.ofNat 32 v.val then (1 : EReal) else 0 := by
  unfold k0_pay2
  rw [shapeCast_self]
  refine (sitofp_cmpi_eq _ _).trans ?_
  have e1 : broadcastTo S1024x4096 (shapeCast S1024x1 x shapeCasts_S1x1024x1_S1024x1) broadcasts_S1024x1_S1024x4096 (ix2 n v)
      = x (ix3 (0 : Fin 1) n (0 : Fin 1)) :=
    (broadcastTo_a1_ab_apply _ _ n v).trans (shapeCast_1a1_a1_apply x _ n 0)
  have e2 : iota .tc S1024x4096 32 [1] iota_S1024x4096_d1_w32 (ix2 n v) = BitVec.ofNat 32 v.val :=
    iota_single_apply .tc S1024x4096 32 1 _ (ix2 n v)
  rw [e1, e2]

/-- A one-hot row picks one term of a sum over the 4096 columns. -/
theorem onehot_sel (g : Fin 4096 → EReal) (x : BitVec 32) (hx : x.toNat < 4096) :
    ∑ v : Fin 4096, g v * (if x = BitVec.ofNat 32 v.val then (1 : EReal) else 0) = g ⟨x.toNat, hx⟩ := by
  rw [Finset.sum_eq_single (⟨x.toNat, hx⟩ : Fin 4096)]
  · rw [if_pos (by simp), mul_one]
  · intro v _ hv
    rw [if_neg, mul_zero]
    intro h
    apply hv
    apply Fin.ext
    have := congrArg BitVec.toNat h
    rw [BitVec.toNat_ofNat, Nat.mod_eq_of_lt (by have := v.isLt; omega)] at this
    exact this.symm
  · intro h; exact absurd (Finset.mem_univ _) h

/-- Row `r` of a block `g` of selected rows against row `n` of the table `oh`: the contraction over the 4096 columns. -/
def selRow (g : FVec Ideal S1x256x4096 .bf16) (oh : FVec Ideal S1024x4096 .bf16) (r : Fin 256) (n : Fin 1024) : EReal :=
  ∑ v : Fin 4096, g (ix3 (0 : Fin 1) r v) * oh (ix2 n v)

/-! ### The selection contraction: axis 1 of both operands -/

theorem lhs_sel_0 (j : S256x1024.Idx) (q : dot_S256x4096_S1024x4096_S256x1024_1_1_0_0_n_n.contr.Idx) :
    (dot_S256x4096_S1024x4096_S256x1024_1_1_0_0_n_n.lhsIdx j q 0).val = (j 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
theorem lhs_sel_1 (j : S256x1024.Idx) (q : dot_S256x4096_S1024x4096_S256x1024_1_1_0_0_n_n.contr.Idx) :
    (dot_S256x4096_S1024x4096_S256x1024_1_1_0_0_n_n.lhsIdx j q 1).val = (q ⟨0, by decide⟩).val :=
  dot_S256x4096_S1024x4096_S256x1024_1_1_0_0_n_n.lhsIdx_val_of_single rfl j q
theorem rhs_sel_0 (j : S256x1024.Idx) (q : dot_S256x4096_S1024x4096_S256x1024_1_1_0_0_n_n.contr.Idx) :
    (dot_S256x4096_S1024x4096_S256x1024_1_1_0_0_n_n.rhsIdx j q 0).val = (j 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
theorem rhs_sel_1 (j : S256x1024.Idx) (q : dot_S256x4096_S1024x4096_S256x1024_1_1_0_0_n_n.contr.Idx) :
    (dot_S256x4096_S1024x4096_S256x1024_1_1_0_0_n_n.rhsIdx j q 1).val = (q ⟨0, by decide⟩).val :=
  dot_S256x4096_S1024x4096_S256x1024_1_1_0_0_n_n.rhsIdx_val_of_single rfl j q

/-- The product of a block of selected rows with the table, into a zero accumulator, at (r, n): the contraction over
    the 4096 columns. -/
theorem selmm_apply (g : FVec Ideal S1x256x4096 .bf16) (oh : FVec Ideal S1024x4096 .bf16) (r : Fin 256) (n : Fin 1024) :
    matmul dot_S256x4096_S1024x4096_S256x1024_1_1_0_0_n_n none
        (shapeCast S256x4096 g shapeCasts_S1x256x4096_S256x4096) oh (constant (F := Ideal) S256x1024 .f32 0x00000000#32) (ix2 r n)
      = selRow g oh r n := by
  unfold selRow
  refine (Ideal.matmul_constant_zero_apply dot_S256x4096_S1024x4096_S256x1024_1_1_0_0_n_n none (shapeCast S256x4096 g shapeCasts_S1x256x4096_S256x4096) oh (ix2 r n)).trans ?_
  rw [← Equiv.sum_comp (ValueIdx.contrEquiv1 dot_S256x4096_S1024x4096_S256x1024_1_1_0_0_n_n 4096 rfl rfl).symm]
  refine Finset.sum_congr rfl fun k _ => ?_
  have hk := ValueIdx.contrEquiv1_symm_val dot_S256x4096_S1024x4096_S256x1024_1_1_0_0_n_n 4096 rfl rfl k
  have el : dot_S256x4096_S1024x4096_S256x1024_1_1_0_0_n_n.lhsIdx (ix2 r n) ((ValueIdx.contrEquiv1 dot_S256x4096_S1024x4096_S256x1024_1_1_0_0_n_n 4096 rfl rfl).symm k) = ix2 r k := funext fun a => Fin.ext (by
    match a with
    | ⟨0, _⟩ => exact lhs_sel_0 _ _
    | ⟨1, _⟩ => exact (lhs_sel_1 _ _).trans hk)
  have er : dot_S256x4096_S1024x4096_S256x1024_1_1_0_0_n_n.rhsIdx (ix2 r n) ((ValueIdx.contrEquiv1 dot_S256x4096_S1024x4096_S256x1024_1_1_0_0_n_n 4096 rfl rfl).symm k) = ix2 n k := funext fun a => Fin.ext (by
    match a with
    | ⟨0, _⟩ => exact rhs_sel_0 _ _
    | ⟨1, _⟩ => exact (rhs_sel_1 _ _).trans hk)
  rw [el, er, shapeCast_1ab_ab_apply]

/-! ### The result contraction: rows of weights against the features -/

theorem lhs_out_0 (j : S256x128.Idx) (q : dot_S256x1024_S1024x128_S256x128_1_0_0_1_n_n.contr.Idx) :
    (dot_S256x1024_S1024x128_S256x128_1_0_0_1_n_n.lhsIdx j q 0).val = (j 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
theorem lhs_out_1 (j : S256x128.Idx) (q : dot_S256x1024_S1024x128_S256x128_1_0_0_1_n_n.contr.Idx) :
    (dot_S256x1024_S1024x128_S256x128_1_0_0_1_n_n.lhsIdx j q 1).val = (q ⟨0, by decide⟩).val :=
  dot_S256x1024_S1024x128_S256x128_1_0_0_1_n_n.lhsIdx_val_of_single rfl j q
theorem rhs_out_0 (j : S256x128.Idx) (q : dot_S256x1024_S1024x128_S256x128_1_0_0_1_n_n.contr.Idx) :
    (dot_S256x1024_S1024x128_S256x128_1_0_0_1_n_n.rhsIdx j q 0).val = (q ⟨0, by decide⟩).val :=
  dot_S256x1024_S1024x128_S256x128_1_0_0_1_n_n.rhsIdx_val_of_single rfl j q
theorem rhs_out_1 (j : S256x128.Idx) (q : dot_S256x1024_S1024x128_S256x128_1_0_0_1_n_n.contr.Idx) :
    (dot_S256x1024_S1024x128_S256x128_1_0_0_1_n_n.rhsIdx j q 1).val = (j 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl

/-- The product of a block of row weights with the batch's features, into a zero accumulator, at (r, f): the sum over
    the 1024 positions. -/
theorem outmm_apply (p : FVec Ideal S256x1024 .f32) (ft : FVec Ideal S1x1024x128 .f32) (r : Fin 256) (f : Fin 128) :
    matmul dot_S256x1024_S1024x128_S256x128_1_0_0_1_n_n (some .fp32) p
        (shapeCast S1024x128 ft shapeCasts_S1x1024x128_S1024x128) (constant (F := Ideal) S256x128 .f32 0x00000000#32) (ix2 r f)
      = ∑ n : Fin 1024, p (ix2 r n) * ft (ix3 (0 : Fin 1) n f) := by
  refine (Ideal.matmul_constant_zero_apply dot_S256x1024_S1024x128_S256x128_1_0_0_1_n_n (some .fp32) p (shapeCast S1024x128 ft shapeCasts_S1x1024x128_S1024x128) (ix2 r f)).trans ?_
  rw [← Equiv.sum_comp (ValueIdx.contrEquiv1 dot_S256x1024_S1024x128_S256x128_1_0_0_1_n_n 1024 rfl rfl).symm]
  refine Finset.sum_congr rfl fun k _ => ?_
  have hk := ValueIdx.contrEquiv1_symm_val dot_S256x1024_S1024x128_S256x128_1_0_0_1_n_n 1024 rfl rfl k
  have el : dot_S256x1024_S1024x128_S256x128_1_0_0_1_n_n.lhsIdx (ix2 r f) ((ValueIdx.contrEquiv1 dot_S256x1024_S1024x128_S256x128_1_0_0_1_n_n 1024 rfl rfl).symm k) = ix2 r k := funext fun a => Fin.ext (by
    match a with
    | ⟨0, _⟩ => exact lhs_out_0 _ _
    | ⟨1, _⟩ => exact (lhs_out_1 _ _).trans hk)
  have er : dot_S256x1024_S1024x128_S256x128_1_0_0_1_n_n.rhsIdx (ix2 r f) ((ValueIdx.contrEquiv1 dot_S256x1024_S1024x128_S256x128_1_0_0_1_n_n 1024 rfl rfl).symm k) = ix2 k f := funext fun a => Fin.ext (by
    match a with
    | ⟨0, _⟩ => exact (rhs_out_0 _ _).trans hk
    | ⟨1, _⟩ => exact rhs_out_1 _ _)
  rw [el, er, shapeCast_1ab_ab_apply]

/-! ### The diagonal test -/

/-- Two naturals below 2^32 are equal when their 32-bit words are. -/
theorem ofNat32_inj {a b : ℕ} (ha : a < 4294967296) (hb : b < 4294967296) (h : BitVec.ofNat 32 a = BitVec.ofNat 32 b) : a = b := by
  have := congrArg BitVec.toNat h
  rw [BitVec.toNat_ofNat, BitVec.toNat_ofNat, Nat.mod_eq_of_lt (by omega), Nat.mod_eq_of_lt (by omega)] at this
  exact this

/-- The row tile's offset plus the row in the tile, against the column: no wrap in 32 bits, so the words are equal
    exactly when the numbers are. -/
theorem diag_apply (i : grid0.Coords) (r : Fin 256) (n : Fin 1024) :
    cmpi .eq (addi (broadcast S256x1024 (Scalar.muli (BitVec.ofNat 32 (i 1).val) 256#32)) (iota .tc S256x1024 32 [0] iota_S256x1024_d0_w32))
        (iota .tc S256x1024 32 [1] iota_S256x1024_d1_w32) (ix2 r n)
      = if (i 1).val * 256 + r.val = n.val then 1#1 else 0#1 := by
  have h4 : (i 1).val < 4 := (i 1).isLt
  have e0 : iota .tc S256x1024 32 [0] iota_S256x1024_d0_w32 (ix2 r n) = BitVec.ofNat 32 r.val :=
    iota_single_apply .tc S256x1024 32 0 _ (ix2 r n)
  have e1 : iota .tc S256x1024 32 [1] iota_S256x1024_d1_w32 (ix2 r n) = BitVec.ofNat 32 n.val :=
    iota_single_apply .tc S256x1024 32 1 _ (ix2 r n)
  show IntOp.cmpi .eq (IntOp.addi (IntOp.muli (BitVec.ofNat 32 (i 1).val) 256#32) (iota .tc S256x1024 32 [0] iota_S256x1024_d0_w32 (ix2 r n)))
      (iota .tc S256x1024 32 [1] iota_S256x1024_d1_w32 (ix2 r n)) = _
  rw [e0, e1]
  have hs : IntOp.addi (IntOp.muli (BitVec.ofNat 32 (i 1).val) 256#32) (BitVec.ofNat 32 r.val)
      = BitVec.ofNat 32 ((i 1).val * 256 + r.val) := by
    apply BitVec.eq_of_toNat_eq
    show ((BitVec.ofNat 32 (i 1).val) * 256#32 + BitVec.ofNat 32 r.val).toNat = _
    simp only [BitVec.toNat_add, BitVec.toNat_mul, BitVec.toNat_ofNat, Nat.reducePow]
    omega
  rw [hs]
  unfold IntOp.cmpi
  by_cases h : (i 1).val * 256 + r.val = n.val
  · rw [if_pos h, h]; simp
  · rw [if_neg h]
    have hb : (BitVec.ofNat 32 ((i 1).val * 256 + r.val) == BitVec.ofNat 32 n.val) = false := by
      rw [beq_eq_false_iff_ne]
      intro e
      exact h (ofNat32_inj (by have := r.isLt; omega) (by have := n.isLt; omega) e)
    simp [hb]

/-! ### A row's maximum and sum; the column layouts -/

/-- A `[a]` array cast to the column `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A per-row value, kept as a column and broadcast back over the row's 1024 entries, reads the row's value. -/
theorem keepdims_apply (c : FVec Ideal S256 .f32) (r : Fin 256) (n : Fin 1024) :
    broadcastTo S256x1024 (shapeCast S256x1 c shapeCasts_S256_S256x1) broadcasts_S256x1_S256x1024 (ix2 r n) = c (ix1 r) :=
  (broadcastTo_a1_ab_apply _ _ r n).trans (shapeCast_a_a1_apply c _ r 0)

/-- The index over row `r` with `k` put back on the reduced axis is (r, k). -/
theorem lift_row (r : Fin 256) (k : Fin 1024) : reduces_S256x1024_S256.lift (ix1 r) k = ix2 r k :=
  funext fun c => Fin.ext (by match c with | ⟨0, _⟩ => rfl | ⟨1, _⟩ => rfl)

/-- The word the maximum's fold starts from is −∞. -/
theorem ofBits_neg_inf : Ideal.ofBits .f32 0xFF800000#32 = ⊥ := by simp [Ideal.ofBits, Ideal.ieee]

/-- The lane maximum of a block at row `r`: the fold of `max` from −∞ over the row's 1024 entries. -/
theorem rowmax_apply (w : FVec Ideal S256x1024 .f32) (hφ : FKind.Formats .f32)
    (hacc : (0xFF800000#32 : BitVec 32) = FKind.maximumf.neutral .f32 hφ) (r : Fin 256) :
    multiReduction .maximumf [1] S256 w 0xFF800000#32 reduces_S256x1024_S256 hφ hacc (ix1 r)
      = Cert.Spec.rowMax (fun k => w (ix2 r k)) := by
  refine (Ideal.multiReduction_maximumf_single w 0xFF800000#32 reduces_S256x1024_S256 hφ hacc (ix1 r)).trans ?_
  show (Finset.univ : Finset (Fin 1024)).fold max (Ideal.ofBits .f32 0xFF800000#32) (fun k => w (reduces_S256x1024_S256.lift (ix1 r) k)) = _
  rw [ofBits_neg_inf]
  unfold Cert.Spec.rowMax
  exact congrArg (fun f => (Finset.univ : Finset (Fin 1024)).fold max ⊥ f) (funext fun k => congrArg w (lift_row r k))

/-- The lane sum of a block at row `r`: the sum of the row's 1024 entries. -/
theorem rowsum_apply (e : FVec Ideal S256x1024 .f32) (hφ : FKind.Formats .f32)
    (hacc : (0x00000000#32 : BitVec 32) = FKind.add.neutral .f32 hφ) (r : Fin 256) :
    multiReduction .add [1] S256 e 0x00000000#32 reduces_S256x1024_S256 hφ hacc (ix1 r) = ∑ k : Fin 1024, e (ix2 r k) := by
  refine (Ideal.multiReduction_add_single e 0x00000000#32 reduces_S256x1024_S256 hφ hacc (ix1 r)).trans ?_
  show ∑ k : Fin 1024, e (reduces_S256x1024_S256.lift (ix1 r) k) = _
  exact Finset.sum_congr rfl fun k _ => congrArg e (lift_row r k)

/-! ### The softmax of a block's rows -/

/-- A block's entries shifted by their row's maximum, exponentiated. -/
abbrev expShift (w : FVec Ideal S256x1024 .f32) : FVec Ideal S256x1024 .f32 :=
  exp (subf w (broadcastTo S256x1024 (shapeCast S256x1
    (multiReduction .maximumf [1] S256 w 0xFF800000#32 reduces_S256x1024_S256 (.inl rfl) rfl) shapeCasts_S256_S256x1) broadcasts_S256x1_S256x1024))

theorem expShift_apply (w : FVec Ideal S256x1024 .f32) (r : Fin 256) (n : Fin 1024) :
    expShift w (ix2 r n) = Ideal.exp (w (ix2 r n) - Cert.Spec.rowMax (fun k => w (ix2 r k))) := by
  show Ideal.exp (w (ix2 r n) - broadcastTo S256x1024 (shapeCast S256x1
    (multiReduction .maximumf [1] S256 w 0xFF800000#32 reduces_S256x1024_S256 (.inl rfl) rfl) shapeCasts_S256_S256x1) broadcasts_S256x1_S256x1024 (ix2 r n)) = _
  exact congrArg (fun m => Ideal.exp (w (ix2 r n) - m)) ((keepdims_apply _ r n).trans (rowmax_apply w (.inl rfl) rfl r))

/-- The block of softmax weights at (r, n) is the specification's weight of column `n` in row `r`. -/
theorem softmax_apply (w : FVec Ideal S256x1024 .f32) (r : Fin 256) (n : Fin 1024) :
    divf (expShift w) (broadcastTo S256x1024 (shapeCast S256x1
        (multiReduction .add [1] S256 (expShift w) 0x00000000#32 reduces_S256x1024_S256 (.inl rfl) rfl) shapeCasts_S256_S256x1) broadcasts_S256x1_S256x1024) (ix2 r n)
      = Cert.Spec.attn (fun k => w (ix2 r k)) n := by
  show Ideal.div (expShift w (ix2 r n)) (broadcastTo S256x1024 (shapeCast S256x1
        (multiReduction .add [1] S256 (expShift w) 0x00000000#32 reduces_S256x1024_S256 (.inl rfl) rfl) shapeCasts_S256_S256x1) broadcasts_S256x1_S256x1024 (ix2 r n)) = _
  unfold Cert.Spec.attn
  refine congrArg₂ Ideal.div (expShift_apply w r n) ?_
  refine (keepdims_apply _ r n).trans ((rowsum_apply (expShift w) (.inl rfl) rfl r).trans ?_)
  exact Finset.sum_congr rfl fun k _ => expShift_apply w r k

/-! ### The masked selected rows, and the result block -/

/-- A block of selected rows with the diagonal entry (column `tile · 256 + r` of row `r`) replaced by zero. -/
abbrev masked (i : grid0.Coords) (g : FVec Ideal S1x256x4096 .bf16) (oh : FVec Ideal S1024x4096 .bf16) : FVec Ideal S256x1024 .f32 :=
  select (cmpi .eq (addi (broadcast S256x1024 (Scalar.muli (BitVec.ofNat 32 (i 1).val) 256#32)) (iota .tc S256x1024 32 [0] iota_S256x1024_d0_w32))
      (iota .tc S256x1024 32 [1] iota_S256x1024_d1_w32))
    (broadcast S256x1024 (Scalar.ofBits (F := Ideal) .f32 0x00000000#32))
    (matmul dot_S256x4096_S1024x4096_S256x1024_1_1_0_0_n_n none (shapeCast S256x4096 g shapeCasts_S1x256x4096_S256x4096) oh
      (constant (F := Ideal) S256x1024 .f32 0x00000000#32))

theorem masked_apply (i : grid0.Coords) (g : FVec Ideal S1x256x4096 .bf16) (oh : FVec Ideal S1024x4096 .bf16) (r : Fin 256) (n : Fin 1024) :
    masked i g oh (ix2 r n) = if (i 1).val * 256 + r.val = n.val then 0 else selRow g oh r n := by
  have hd := diag_apply i r n
  have hm := selmm_apply g oh r n
  show Scalar.select (cmpi .eq (addi (broadcast S256x1024 (Scalar.muli (BitVec.ofNat 32 (i 1).val) 256#32)) (iota .tc S256x1024 32 [0] iota_S256x1024_d0_w32))
      (iota .tc S256x1024 32 [1] iota_S256x1024_d1_w32) (ix2 r n)) (Ideal.ofBits .f32 0x00000000#32)
    (matmul dot_S256x4096_S1024x4096_S256x1024_1_1_0_0_n_n none (shapeCast S256x4096 g shapeCasts_S1x256x4096_S256x4096) oh
      (constant (F := Ideal) S256x1024 .f32 0x00000000#32) (ix2 r n)) = _
  rw [hd, hm]
  by_cases h : (i 1).val * 256 + r.val = n.val
  · rw [if_pos h, if_pos h, select_one]; exact Ideal.ofBits_zero_f32
  · rw [if_neg h, if_neg h, select_zero]

/-- The block of softmax weights of a block of rows. -/
abbrev softmaxBlock (w : FVec Ideal S256x1024 .f32) : FVec Ideal S256x1024 .f32 :=
  divf (expShift w) (broadcastTo S256x1024 (shapeCast S256x1
    (multiReduction .add [1] S256 (expShift w) 0x00000000#32 reduces_S256x1024_S256 (.inl rfl) rfl) shapeCasts_S256_S256x1) broadcasts_S256x1_S256x1024)

/-- The payload as one expression over the named blocks. -/
theorem pay3_eq (i : grid0.Coords) (oh : FVec Ideal S1024x4096 .bf16) (gi gw : FVec Ideal S1x256x4096 .bf16)
    (ft : FVec Ideal S1x1024x128 .f32) :
    k0_pay3 (F := Ideal) i oh gi gw ft
      = matmul dot_S256x1024_S1024x128_S256x128_1_0_0_1_n_n (some .fp32)
          (mulf (masked i gi oh) (softmaxBlock (absf (masked i gw oh))))
          (shapeCast S1024x128 ft shapeCasts_S1x1024x128_S1024x128) (constant (F := Ideal) S256x128 .f32 0x00000000#32) := rfl

/-- THE RESULT BLOCK AT (r, f), at the grid point `i` (whose second coordinate is the row tile): the specification's row
    function of the masked selected rows (the diagonal is at column `tile · 256 + r`) and the features' column `f`. -/
theorem pay3_apply (i : grid0.Coords) (oh : FVec Ideal S1024x4096 .bf16) (gi gw : FVec Ideal S1x256x4096 .bf16)
    (ft : FVec Ideal S1x1024x128 .f32) (r : Fin 256) (f : Fin 128) :
    k0_pay3 (F := Ideal) i oh gi gw ft (ix2 r f)
      = Cert.Spec.rowOut
          (fun n => if (i 1).val * 256 + r.val = n.val then 0 else selRow gi oh r n)
          (fun n => max (if (i 1).val * 256 + r.val = n.val then 0 else selRow gw oh r n)
                        (-(if (i 1).val * 256 + r.val = n.val then 0 else selRow gw oh r n)))
          (fun n => ft (ix3 (0 : Fin 1) n f)) := by
  refine (congrFun (pay3_eq i oh gi gw ft) (ix2 r f)).trans ?_
  refine (outmm_apply _ ft r f).trans ?_
  unfold Cert.Spec.rowOut
  refine Finset.sum_congr rfl fun n _ => ?_
  refine congrArg (· * ft (ix3 (0 : Fin 1) n f)) ?_
  refine (mulf_apply _ _ (ix2 r n)).trans ?_
  refine congrArg₂ (· * ·) (masked_apply i gi oh r n) ?_
  refine (softmax_apply _ r n).trans ?_
  refine congrArg (fun w => Cert.Spec.attn w n) (funext fun k => ?_)
  show max (masked i gw oh (ix2 r k)) (-(masked i gw oh (ix2 r k))) = _
  rw [masked_apply]

end Cert.KernelIdeal.Payload

end
-- ==== Proof.KValue.lean ====
/-
  The kernel's result array after the run is the specification `Spec.G` of the four arguments, when every id is a row
  number of the tables.

  Row `n` of the one-hot table of a batch is 1 exactly at the column numbered id[b, n]; so the contraction of a selected
  row (4096 columns, the last 96 zero) with it is that row's entry at column id[b, n], which is the table's entry at
  (row of id[b, R], row of id[b, n]) because id[b, n] < 4000. The rest of the body is the specification's row function,
  and the 128 result blocks tile the result array.
-/
import proofs.«415122_j11725260718400_2_alg».proof.Proof.KBlocks
import proofs.«415122_j11725260718400_2_alg».proof.Proof.HostPrefix
import proofs.«415122_j11725260718400_2_alg».proof.Proof.Payload
import proofs.«415122_j11725260718400_2_alg».proof.Proof.Spec
import Idealize.ShloMosaic.Lib.ValueLayout

set_option maxRecDepth 16384

noncomputable section

namespace Cert.KernelIdeal.KValue

open Cert.KernelIdeal Cert.KernelIdeal.Gen Cert.KernelIdeal.KBlocks Cert.KernelIdeal.HostPrefix Cert.KernelIdeal.Payload
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Row `n` of the one-hot table of the batch of point `t`. -/
theorem oh_apply (c : Dev nD) (t : Fin cfg0.N) (n : Fin 1024) (v : Fin 4096) :
    k0_pay2 (F := Ideal) (idsBlk m c t) (ix2 n v)
      = if ids m c (ix2 (batchOf t) n) = BitVec.ofNat 32 v.val then (1 : EReal) else 0 := by
  rw [pay2_apply, idsBlk_apply, V_ids]

/-- A padded selected row at the column an in-range id names is the table's entry. -/
theorem padded_at (X : Cert.Spec.SMat.Idx → EReal) (ρ₀ : Fin 4000) (x : BitVec 32) (hx : x.toNat < 4000) :
    (fun v : Fin 4096 => if h : v.val < 4000 then X (ix2 ρ₀ ⟨v.val, h⟩) else 0) ⟨x.toNat, by omega⟩
      = X (ix2 ρ₀ (Cert.Spec.rowOf x)) := by
  show (if h : x.toNat < 4000 then X (ix2 ρ₀ ⟨x.toNat, h⟩) else 0) = _
  rw [dif_pos hx]
  congr 2
  exact Fin.ext (Cert.Spec.rowOf_of_lt hx).symm

/-- THE SELECTION, interactions: the contraction with the one-hot table picks the specification's entry. -/
theorem selRow_gi (c : Dev nD) (hR : Cert.Spec.InRange (ids m c)) (t : Fin cfg0.N) (r : Fin 256) (n : Fin 1024) :
    selRow (giBlk m c t) (k0_pay2 (F := Ideal) (idsBlk m c t)) r n
      = Cert.Spec.sel (ids m c) (matM m c) (batchOf t) (tileRow t r) n := by
  have hx := hR (batchOf t) n
  unfold selRow
  rw [Finset.sum_congr rfl (fun v _ => by rw [oh_apply, giBlk_apply, V_gi])]
  exact (onehot_sel (fun v : Fin 4096 => if h : v.val < 4000 then matM m c (ix2 (Cert.Spec.rowOf (ids m c (ix2 (batchOf t) (tileRow t r)))) ⟨v.val, h⟩) else 0)
    (ids m c (ix2 (batchOf t) n)) (by omega)).trans (padded_at (matM m c) _ _ hx)

/-- THE SELECTION, weights. -/
theorem selRow_gw (c : Dev nD) (hR : Cert.Spec.InRange (ids m c)) (t : Fin cfg0.N) (r : Fin 256) (n : Fin 1024) :
    selRow (gwBlk m c t) (k0_pay2 (F := Ideal) (idsBlk m c t)) r n
      = Cert.Spec.sel (ids m c) (matW m c) (batchOf t) (tileRow t r) n := by
  have hx := hR (batchOf t) n
  unfold selRow
  rw [Finset.sum_congr rfl (fun v _ => by rw [oh_apply, gwBlk_apply, V_gw])]
  exact (onehot_sel (fun v : Fin 4096 => if h : v.val < 4000 then matW m c (ix2 (Cert.Spec.rowOf (ids m c (ix2 (batchOf t) (tileRow t r)))) ⟨v.val, h⟩) else 0)
    (ids m c (ix2 (batchOf t) n)) (by omega)).trans (padded_at (matW m c) _ _ hx)

/-- The specification, as an array of the result's buffer type. -/
abbrev Gm (c : Dev nD) : S32x1024x128.Idx → EReal := Cert.Spec.G (feat m c) (ids m c) (matM m c) (matW m c)

/-- WHAT POINT `t` WRITES BACK is block `t` of the specification. -/
theorem flushed_eq (c : Dev nD) (hR : Cert.Spec.InRange (ids m c)) (t : Fin cfg0.N) :
    (dats m 0 c).flushed 4 t = ((cfg0.win 4).blk t).view.read (Elt Ideal) (Gm m c) := by
  rw [Cert.KernelIdeal.Value.flushed4, out_eq]
  obtain ⟨-, -, -, -, -, -, -, -, -, -, -, -, e0, e1, e2, ec⟩ := idx_facts t
  funext y
  obtain ⟨a, r, f, rfl⟩ : ∃ (a : Fin 1) (r : Fin 256) (f : Fin 128), y = ix3 a r f := ⟨y 0, y 1, y 2, eq_ix3 y⟩
  have hemb : ((cfg0.win 4).blk t).view.emb (ix3 a r f) = ix3 (batchOf t) (tileRow t r) f := by
    funext d; apply Fin.ext
    have ha : a.val = 0 := by omega
    match d with
    | ⟨0, _⟩ => show win0_4.index t (0 : Fin 3) * 1 + 1 * a.val = t.val / 4; omega
    | ⟨1, _⟩ => show win0_4.index t (1 : Fin 3) * 256 + 1 * r.val = (t.val % 4) * 256 + r.val; omega
    | ⟨2, _⟩ => show win0_4.index t (2 : Fin 3) * 128 + 1 * f.val = f.val; omega
  show k0_pay1 (k0_pay3 (F := Ideal) (grid0.coords t) (k0_pay2 (idsBlk m c t)) (giBlk m c t) (gwBlk m c t) (featBlk m c t)) (ix3 a r f)
      = Gm m c (((cfg0.win 4).blk t).view.emb (ix3 a r f))
  rw [hemb]
  have hp1 : ∀ v : FVec Ideal S256x128 .f32, k0_pay1 (F := Ideal) v (ix3 a r f) = v (ix2 r f) :=
    fun v => shapeCast_ab_1ab_apply v shapeCasts_S256x128_S1x256x128 a r f
  rw [hp1, pay3_apply]
  show _ = Cert.Spec.Gat (feat m c) (ids m c) (matM m c) (matW m c) (batchOf t) (tileRow t r) f
  unfold Cert.Spec.Gat
  have hA : (fun n : Fin 1024 => if ((grid0.coords t) 1).val * 256 + r.val = n.val then (0 : EReal) else selRow (giBlk m c t) (k0_pay2 (F := Ideal) (idsBlk m c t)) r n)
      = Cert.Spec.aRow (ids m c) (matM m c) (batchOf t) (tileRow t r) := by
    funext n; unfold Cert.Spec.aRow; rw [selRow_gi m c hR, ec]
  have hW : (fun n : Fin 1024 => max (if ((grid0.coords t) 1).val * 256 + r.val = n.val then (0 : EReal) else selRow (gwBlk m c t) (k0_pay2 (F := Ideal) (idsBlk m c t)) r n)
        (-(if ((grid0.coords t) 1).val * 256 + r.val = n.val then (0 : EReal) else selRow (gwBlk m c t) (k0_pay2 (F := Ideal) (idsBlk m c t)) r n)))
      = Cert.Spec.wRow (ids m c) (matW m c) (batchOf t) (tileRow t r) := by
    funext n; unfold Cert.Spec.wRow; rw [selRow_gw m c hR, ec]
  have hX : (fun n : Fin 1024 => featBlk m c t (ix3 (0 : Fin 1) n f)) = (fun n : Fin 1024 => feat m c (ix3 (batchOf t) n f)) := by
    funext n; rw [featBlk_apply, V_feat]
  rw [hA, hW, hX]

/-- An index of the result array is in point `t`'s block iff each coordinate is in the block's range on its axis. -/
theorem mem_blk (t : Fin cfg0.N) (i : S32x1024x128.Idx) :
    i ∈ ((cfg0.win 4).blk t).view.set ↔ ∀ a : Fin 3, win0_4.index t a * S1x256x128.size a ≤ (i a).val ∧ (i a).val < win0_4.index t a * S1x256x128.size a + S1x256x128.size a := by
  show i ∈ ((View.whole main_v19).slice (win0_4.rect t)).set ↔ _
  rw [View.set_slice_whole, Rect.mem_set_unit]
  exact Iff.rfl

/-- THE BLOCKS TILE THE ARRAY: (b, R, f) is in the block of point 4 b + R / 256. -/
theorem cover (i : S32x1024x128.Idx) : ∃ t : Fin cfg0.N, (cfg0.win 4).flush t = true ∧ i ∈ ((cfg0.win 4).blk t).view.set := by
  have h0 : (i 0).val < 32 := (i 0).isLt
  have h1 : (i 1).val < 1024 := (i 1).isLt
  have h2 : (i 2).val < 128 := (i 2).isLt
  let t : Fin cfg0.N := ⟨4 * (i 0).val + (i 1).val / 256, by have := N_eq; omega⟩
  obtain ⟨-, -, -, -, -, -, -, -, -, -, -, -, e0, e1, e2, -⟩ := idx_facts t
  have ht : t.val = 4 * (i 0).val + (i 1).val / 256 := rfl
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 128 ≤ (i 2).val ∧ (i 2).val < win0_4.index t (2 : Fin 3) * 128 + 128; omega

/-- THE RESULT ARRAY after the run. -/
theorem final (c : Dev nD) (hR : Cert.Spec.InRange (ids m c)) : (dats m 0 c).arrAt 4 cfg0.N = Gm m c :=
  (dats m 0 c).arrAt_eq_of_cover 4 (Gm m c) (fun t _ => flushed_eq m c hR t) cover

/-- The kernel's run, re-posted: the result array is the specification of the arguments, which are unchanged. -/
theorem run (hR : ∀ c : Dev nD, Cert.Spec.InRange (ids m c)) :
    θ_run defs (onTc (τ := τ) (main (F := Ideal))) ⟨m, fun _ => 0, ρ⟩ fun r => ∀ c : Dev nD,
      r.2.mem ((c : Thread nD τ).loc main_v19) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hR c)), (h c).2⟩) (Cert.KernelIdeal.Value.run_blocks m ρ)

end Cert.KernelIdeal.KValue

end
-- ==== Proof.lean ====
/-
  A masked, softmax-weighted double gather, contracted with features: the kernel against its jnp reference, equal at
  the ideal instance when every id is a row number of the two 4000 × 4000 tables.

  Both programs compute, for a batch b, a query position R and a feature f,

      out[b, R, f] = ∑ n, (a n · softmax(w) n) · feat[b, n, f],
      a n = (R = n ? 0 : M[id[b, R], id[b, n]]),   w n = |R = n ? 0 : W[id[b, R], id[b, n]]|,

  the softmax shifted by the row's maximum (Proof/Spec.lean: `Spec.G`). The reference selects rows and then columns by
  two gathers (Proof/LibGather3.lean reads them at an index; Proof/RefValue.lean: the reference's term is `Spec.G`).
  The kernel lets the host gather the rows, padded from 4000 to 4096 columns with zeros (Proof/HostPrefix.lean), and
  selects the columns itself by contracting each selected row with a one-hot table of the batch's ids, which it builds
  once per batch, at the batch's first row tile, and keeps in a scratch buffer for the other three tiles
  (Proof/Pieces.lean, Proof/KBlocks.lean: the scratch after every grid point; Proof/Payload.lean: the body's arithmetic
  at an index). A one-hot row picks exactly one term of the contraction, and 0 · x = 0 for every extended real x, so no
  finiteness is used; what is used is that an id in [0, 4000) is neither wrapped nor clamped by the reference's indexing
  and names one of the first 4000 columns of the padded row (Proof/KValue.lean). That range is the precondition's last
  conjunct, decoded in Proof/PreDecode.lean. Outside it the two programs differ: an id the reference wraps or clamps is
  matched by no column of the one-hot table.
-/
import proofs.«415122_j11725260718400_2_alg».proof.Defs
import proofs.«415122_j11725260718400_2_alg».proof.Proof.Gen.Kernel
import proofs.«415122_j11725260718400_2_alg».proof.Proof.Gen.Kernel.Skeleton
import proofs.«415122_j11725260718400_2_alg».proof.Proof.Gen.Kernel.Launch
import proofs.«415122_j11725260718400_2_alg».proof.Proof.Gen.Kernel.Points
import proofs.«415122_j11725260718400_2_alg».proof.Proof.Gen.Kernel.Frame
import proofs.«415122_j11725260718400_2_alg».proof.Proof.Gen.KernelIdeal
import proofs.«415122_j11725260718400_2_alg».proof.Proof.Gen.KernelIdeal.Skeleton
import proofs.«415122_j11725260718400_2_alg».proof.Proof.Gen.KernelIdeal.Launch
import proofs.«415122_j11725260718400_2_alg».proof.Proof.Gen.KernelIdeal.Points
import proofs.«415122_j11725260718400_2_alg».proof.Proof.Gen.KernelIdeal.Frame
import proofs.«415122_j11725260718400_2_alg».proof.Proof.Gen.KernelIdeal.Value
import proofs.«415122_j11725260718400_2_alg».proof.Proof.Gen.ReferenceIdeal.Run
import proofs.«415122_j11725260718400_2_alg».proof.Proof.Gen.ReferenceIdeal.Read
import proofs.«415122_j11725260718400_2_alg».proof.Proof.Gen.ReferenceIdeal
import proofs.«415122_j11725260718400_2_alg».proof.Proof.Gen.Pre_finite_inputs
import proofs.«415122_j11725260718400_2_alg».proof.Proof.Spec
import proofs.«415122_j11725260718400_2_alg».proof.Proof.RefValue
import proofs.«415122_j11725260718400_2_alg».proof.Proof.PreDecode
import proofs.«415122_j11725260718400_2_alg».proof.Proof.KValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_p : Cert.frame_Kernel := fun m ρ _ => Cert.Kernel.Gen.frame m ρ

/-- So does the idealized kernel. -/
theorem frame_pi : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification of the (agreeing) arguments. -/
theorem algebraic : Cert.algebraic_KernelIdeal_ReferenceIdeal := by
  intro m ρ m' ρ' hpre hagree
  have hR : ∀ c : Dev Cert.KernelIdeal.nD, Cert.Spec.InRange (Cert.KernelIdeal.HostPrefix.ids m c) :=
    fun c => Cert.PreDecode.ids_inRange _ _ _ _ (hpre c)
  refine ⟨fun c => Cert.KernelIdeal.KValue.Gm m c, Cert.KernelIdeal.KValue.run m ρ hR, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.RefValue.ref_eq_spec, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
